-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_arg12 : FVec F S128 .f32) (main_arg13 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : FVec F S50000x3 .f32) (main_arg2 : IVec S2x800000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S4000x128 : Shape := ⟨2, ![4000, 128]⟩
abbrev S4000x3 : Shape := ⟨2, ![4000, 3]⟩
abbrev S4000 : Shape := ⟨1, ![4000]⟩
abbrev S4000x1 : Shape := ⟨2, ![4000, 1]⟩
abbrev S50000 : Shape := ⟨1, ![50000]⟩
abbrev S5000x128 : Shape := ⟨2, ![5000, 128]⟩
abbrev S50000x1 : Shape := ⟨2, ![50000, 1]⟩

abbrev nBuf : Space → Nat
  | .hbm => 89
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x3, .f32⟩
  | .hbm, ⟨54, _⟩ => ⟨S800000x3, .f32⟩
  | .hbm, ⟨55, _⟩ => ⟨S128x128, .f32⟩
  | .hbm, ⟨56, _⟩ => ⟨S128x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S128x128, .f32⟩
  | .hbm, ⟨64, _⟩ => ⟨S128x128, .f32⟩
  | .hbm, ⟨65, _⟩ => ⟨S800000x128, .f32⟩
  | .hbm, ⟨66, _⟩ => ⟨S800000x3, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .f32⟩
  | .hbm, ⟨72, _⟩ => ⟨S50000x3, .f32⟩
  | .hbm, ⟨73, _⟩ => ⟨S800000x1, .i32⟩
  | .hbm, ⟨74, _⟩ => ⟨S50000x3, .f32⟩
  | .hbm, ⟨75, _⟩ => ⟨S_, .f32⟩
  | .hbm, ⟨76, _⟩ => ⟨S800000, .f32⟩
  | .hbm, ⟨77, _⟩ => ⟨S_, .f32⟩
  | .hbm, ⟨78, _⟩ => ⟨S50000, .f32⟩
  | .hbm, ⟨79, _⟩ => ⟨S800000x1, .i32⟩
  | .hbm, ⟨80, _⟩ => ⟨S50000, .f32⟩
  | .hbm, ⟨81, _⟩ => ⟨S50000x128, .f32⟩
  | .hbm, ⟨82, _⟩ => ⟨S50000x1, .f32⟩
  | .hbm, ⟨83, _⟩ => ⟨S_, .f32⟩
  | .hbm, ⟨84, _⟩ => ⟨S50000x1, .f32⟩
  | .hbm, ⟨85, _⟩ => ⟨S50000x1, .f32⟩
  | .hbm, ⟨86, _⟩ => ⟨S50000x3, .f32⟩
  | .hbm, ⟨87, _⟩ => ⟨S50000x3, .f32⟩
  | .hbm, ⟨88, _⟩ => ⟨S50000x3, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x3, .f32⟩
  | .local _ .vmem, ⟨5, _⟩ => ⟨S4000x3, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S4000x128, .f32⟩
  | .local _ .vmem, ⟨16, _⟩ => ⟨S4000x128, .f32⟩
  | .local _ .vmem, ⟨17, _⟩ => ⟨S4000x3, .f32⟩
  | .local _ .vmem, ⟨18, _⟩ => ⟨S4000x3, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev main_cst : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  broadcasts_S4000x1_S4000x3 : S4000x1.Broadcasts S4000x3
  bcast_S_S50000x128 : S_.BroadcastsInDim S50000x128 (![] : Fin 0 → Fin S50000x128.rank)
  bcast_S_S50000x3 : S_.BroadcastsInDim S50000x3 (![] : Fin 0 → Fin S50000x3.rank)
  bcast_S_S50000 : S_.BroadcastsInDim S50000 (![] : Fin 0 → Fin S50000.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S800000x3.size a
  hwx0_2 : ∀ i : grid0.Coords, EltTy.bits .f32 = 32 ∨ (Rect.block (s := S800000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S800000x128.size a
  hwx0_12 : ∀ i : grid0.Coords, EltTy.bits .f32 = 32 ∨ (Rect.block (s := S800000x128) S4000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x3.size a ≤ S800000x3.size a
  hwx0_13 : ∀ i : grid0.Coords, EltTy.bits .f32 = 32 ∨ (Rect.block (s := S800000x3) S4000x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v43_0) S4000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v43_1) S4000x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S257x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x3, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x3, .f32⟩
  | 36 => ⟨S800000x3, .f32⟩
  | 37 => ⟨S800000x3, .f32⟩
  | 38 => ⟨S_, .f32⟩
  | 39 => ⟨S800000, .f32⟩
  | 40 => ⟨S800000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x257, .f32⟩
  | 60 => ⟨S800000x128, .f32⟩
  | 61 => ⟨S1x128, .f32⟩
  | 62 => ⟨S800000x128, .f32⟩
  | 63 => ⟨S800000x128, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S_, .f32⟩
  | 70 => ⟨S800000x128, .f32⟩
  | 71 => ⟨S800000x128, .f32⟩
  | 72 => ⟨S800000x128, .f32⟩
  | 73 => ⟨S800000x128, .f32⟩
  | 74 => ⟨S1x128, .f32⟩
  | 75 => ⟨S800000x128, .f32⟩
  | 76 => ⟨S800000x128, .f32⟩
  | 77 => ⟨S800000x128, .f32⟩
  | 78 => ⟨S800000x128, .f32⟩
  | 79 => ⟨S_, .f32⟩
  | 80 => ⟨S800000x128, .f32⟩
  | 81 => ⟨S800000x128, .f32⟩
  | 82 => ⟨S_, .f32⟩
  | 83 => ⟨S800000x128, .f32⟩
  | 84 => ⟨S800000x128, .f32⟩
  | 85 => ⟨S800000x128, .f32⟩
  | 86 => ⟨S800000x128, .f32⟩
  | 87 => ⟨S1x128, .f32⟩
  | 88 => ⟨S800000x128, .f32⟩
  | 89 => ⟨S800000x128, .f32⟩
  | 90 => ⟨S800000x128, .f32⟩
  | 91 => ⟨S800000x128, .f32⟩
  | 92 => ⟨S_, .f32⟩
  | 93 => ⟨S800000x128, .f32⟩
  | 94 => ⟨S800000x128, .f32⟩
  | 95 => ⟨S_, .f32⟩
  | 96 => ⟨S800000x128, .f32⟩
  | 97 => ⟨S800000x128, .f32⟩
  | 98 => ⟨S800000x128, .f32⟩
  | 99 => ⟨S800000x1, .f32⟩
  | 100 => ⟨S_, .f32⟩
  | 101 => ⟨S800000x1, .f32⟩
  | 102 => ⟨S800000x1, .f32⟩
  | 103 => ⟨S800000x1, .f32⟩
  | 104 => ⟨S800000x3, .f32⟩
  | 105 => ⟨S800000x3, .f32⟩
  | 106 => ⟨S800000x3, .f32⟩
  | 107 => ⟨S800000x3, .f32⟩
  | 108 => ⟨S_, .f32⟩
  | 109 => ⟨S50000x128, .f32⟩
  | 110 => ⟨S800000x1, .i32⟩
  | 111 => ⟨S50000x128, .f32⟩
  | 112 => ⟨S50000x256, .f32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x3, .f32⟩
  | 5 => ⟨S800000x1, .i32⟩
  | 6 => ⟨S50000x3, .f32⟩
  | 7 => ⟨S_, .f32⟩
  | 8 => ⟨S800000, .f32⟩
  | 9 => ⟨S_, .f32⟩
  | 10 => ⟨S50000, .f32⟩
  | 11 => ⟨S800000x1, .i32⟩
  | 12 => ⟨S50000, .f32⟩
  | 13 => ⟨S50000x1, .f32⟩
  | 14 => ⟨S_, .f32⟩
  | 15 => ⟨S50000x1, .f32⟩
  | 16 => ⟨S50000x1, .f32⟩
  | 17 => ⟨S50000x3, .f32⟩
  | 18 => ⟨S50000x3, .f32⟩
  | 19 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v51 : Ref sig .tc := ⟨.hbm, 98, rfl⟩
abbrev main_v52 : Ref sig .tc := ⟨.hbm, 99, rfl⟩
abbrev main_cst_7 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_8 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_call3_v5 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_cst_9 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_cst_10 : Ref sig .tc := ⟨.hbm, 135, rfl⟩
abbrev main_v77 : Ref sig .tc := ⟨.hbm, 136, rfl⟩
abbrev main_cst_11 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_12 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.BlockTables.lean ====
import proofs.«164863_j58875411693658_1_alg».proof.Proof.Gen.KernelIdeal.Frame
import Idealize.ShloMosaic.Lib.ValueIdx
import Idealize.ShloMosaic.Lib.Pipeline.Value

set_option maxRecDepth 16384

noncomputable section

namespace Cert.KernelIdeal.BlockTables

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents a region is entered with: every statement here holds for any of them
variable (V : (c : Dev nD) → (b : Ref sig .tc) → Buf (Elt Ideal) ((c : Thread nD τ).loc b))

/-! # The edge region: 200 points, 4000 edges a point -/

/-! ## The index maps of region 0, decided over its grid: a row-blocked window's block index is the point's number on the rows and 0 on the columns; a weight window's is 0 on both axes -/

theorem lt_N0 (t : Fin cfg0.N) : t.val < 200 := by
  have h : t.val < cfg0.N := t.isLt
  have e : cfg0.N = 200 := N_0
  omega

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = t.val ∧ win0_12.index t (1 : Fin 2) = 0 :=
  (by decide +kernel : ∀ t : Fin grid0.N, _)
theorem idx0_13 : ∀ t : Fin cfg0.N, win0_13.index t (0 : Fin 2) = t.val ∧ win0_13.index t (1 : Fin 2) = 0 :=
  (by decide +kernel : ∀ t : Fin grid0.N, _)

/-! ## Where a block's element sits in its array, and the blocks read through that -/

/-- Element (p, q) of window 0's block at point t is row t·4000 + p of the array. -/
theorem emb0_0 (t : Fin cfg0.N) (p : Fin 4000) (q : Fin 128) :
    ((cfg0.win 0).blk t).view.emb (ix2 p q)
      = ix2 (⟨t.val * 4000 + p.val, by have := lt_N0 t; omega⟩ : Fin 800000) q := by
  funext a; apply Fin.ext
  match a with
  | ⟨0, _⟩ => show win0_0.index t (0 : Fin 2) * 4000 + 1 * p.val = t.val * 4000 + p.val; rw [(idx0_0 t).1]; omega
  | ⟨1, _⟩ => show win0_0.index t (1 : Fin 2) * 128 + 1 * q.val = q.val; rw [(idx0_0 t).2]; omega

theorem rows0_0 (c : Dev nD) (t : Fin cfg0.N) (p : Fin 4000) (q : Fin 128) :
    (iblk0 V c 0 t : Vec Ideal S4000x128 .f32) (ix2 p q)
      = (V c main_v10 : S800000x128.Idx → EReal) (ix2 (⟨t.val * 4000 + p.val, by have := lt_N0 t; omega⟩ : Fin 800000) q) := by
  show (V c main_v10 : S800000x128.Idx → EReal) (((cfg0.win 0).blk t).view.emb (ix2 p q)) = _
  rw [emb0_0]

/-- Element (p, q) of window 1's block at point t is row t·4000 + p of the array. -/
theorem emb0_1 (t : Fin cfg0.N) (p : Fin 4000) (q : Fin 128) :
    ((cfg0.win 1).blk t).view.emb (ix2 p q)
      = ix2 (⟨t.val * 4000 + p.val, by have := lt_N0 t; omega⟩ : Fin 800000) q := by
  funext a; apply Fin.ext
  match a with
  | ⟨0, _⟩ => show win0_1.index t (0 : Fin 2) * 4000 + 1 * p.val = t.val * 4000 + p.val; rw [(idx0_1 t).1]; omega
  | ⟨1, _⟩ => show win0_1.index t (1 : Fin 2) * 128 + 1 * q.val = q.val; rw [(idx0_1 t).2]; omega

theorem rows0_1 (c : Dev nD) (t : Fin cfg0.N) (p : Fin 4000) (q : Fin 128) :
    (iblk0 V c 1 t : Vec Ideal S4000x128 .f32) (ix2 p q)
      = (V c main_v17 : S800000x128.Idx → EReal) (ix2 (⟨t.val * 4000 + p.val, by have := lt_N0 t; omega⟩ : Fin 800000) q) := by
  show (V c main_v17 : S800000x128.Idx → EReal) (((cfg0.win 1).blk t).view.emb (ix2 p q)) = _
  rw [emb0_1]

/-- Element (p, q) of window 2's block at point t is row t·4000 + p of the array. -/
theorem emb0_2 (t : Fin cfg0.N) (p : Fin 4000) (q : Fin 3) :
    ((cfg0.win 2).blk t).view.emb (ix2 p q)
      = ix2 (⟨t.val * 4000 + p.val, by have := lt_N0 t; omega⟩ : Fin 800000) q := by
  funext a; apply Fin.ext
  match a with
  | ⟨0, _⟩ => show win0_2.index t (0 : Fin 2) * 4000 + 1 * p.val = t.val * 4000 + p.val; rw [(idx0_2 t).1]; omega
  | ⟨1, _⟩ => show win0_2.index t (1 : Fin 2) * 3 + 1 * q.val = q.val; rw [(idx0_2 t).2]; omega

theorem rows0_2 (c : Dev nD) (t : Fin cfg0.N) (p : Fin 4000) (q : Fin 3) :
    (iblk0 V c 2 t : Vec Ideal S4000x3 .f32) (ix2 p q)
      = (V c main_v32 : S800000x3.Idx → EReal) (ix2 (⟨t.val * 4000 + p.val, by have := lt_N0 t; omega⟩ : Fin 800000) q) := by
  show (V c main_v32 : S800000x3.Idx → EReal) (((cfg0.win 2).blk t).view.emb (ix2 p q)) = _
  rw [emb0_2]

/-- Window 3's block is its whole array at every point. -/
theorem whole0_3 (c : Dev nD) (t : Fin cfg0.N) :
    (iblk0 V c 3 t : Vec Ideal S128x128 .f32) = (V c main_v33 : S128x128.Idx → EReal) := by
  funext j
  show (V c main_v33 : S128x128.Idx → EReal) (((cfg0.win 3).blk t).view.emb j) = _
  refine congrArg _ (funext fun a => Fin.ext ?_)
  match a with
  | ⟨0, _⟩ => show win0_3.index t (0 : Fin 2) * 128 + 1 * (j 0).val = (j 0).val; rw [(idx0_3 t).1]; omega
  | ⟨1, _⟩ => show win0_3.index t (1 : Fin 2) * 128 + 1 * (j 1).val = (j 1).val; rw [(idx0_3 t).2]; omega

/-- Window 4's block is its whole array at every point. -/
theorem whole0_4 (c : Dev nD) (t : Fin cfg0.N) :
    (iblk0 V c 4 t : Vec Ideal S128x128 .f32) = (V c main_v34 : S128x128.Idx → EReal) := by
  funext j
  show (V c main_v34 : S128x128.Idx → EReal) (((cfg0.win 4).blk t).view.emb j) = _
  refine congrArg _ (funext fun a => Fin.ext ?_)
  match a with
  | ⟨0, _⟩ => show win0_4.index t (0 : Fin 2) * 128 + 1 * (j 0).val = (j 0).val; rw [(idx0_4 t).1]; omega
  | ⟨1, _⟩ => show win0_4.index t (1 : Fin 2) * 128 + 1 * (j 1).val = (j 1).val; rw [(idx0_4 t).2]; omega

/-- Window 5's block is its whole array at every point. -/
theorem whole0_5 (c : Dev nD) (t : Fin cfg0.N) :
    (iblk0 V c 5 t : Vec Ideal S1x128 .f32) = (V c main_v35 : S1x128.Idx → EReal) := by
  funext j
  show (V c main_v35 : S1x128.Idx → EReal) (((cfg0.win 5).blk t).view.emb j) = _
  refine congrArg _ (funext fun a => Fin.ext ?_)
  match a with
  | ⟨0, _⟩ => show win0_5.index t (0 : Fin 2) * 1 + 1 * (j 0).val = (j 0).val; rw [(idx0_5 t).1]; omega
  | ⟨1, _⟩ => show win0_5.index t (1 : Fin 2) * 128 + 1 * (j 1).val = (j 1).val; rw [(idx0_5 t).2]; omega

/-- Window 6's block is its whole array at every point. -/
theorem whole0_6 (c : Dev nD) (t : Fin cfg0.N) :
    (iblk0 V c 6 t : Vec Ideal S1x128 .f32) = (V c main_v36 : S1x128.Idx → EReal) := by
  funext j
  show (V c main_v36 : S1x128.Idx → EReal) (((cfg0.win 6).blk t).view.emb j) = _
  refine congrArg _ (funext fun a => Fin.ext ?_)
  match a with
  | ⟨0, _⟩ => show win0_6.index t (0 : Fin 2) * 1 + 1 * (j 0).val = (j 0).val; rw [(idx0_6 t).1]; omega
  | ⟨1, _⟩ => show win0_6.index t (1 : Fin 2) * 128 + 1 * (j 1).val = (j 1).val; rw [(idx0_6 t).2]; omega

/-- Window 7's block is its whole array at every point. -/
theorem whole0_7 (c : Dev nD) (t : Fin cfg0.N) :
    (iblk0 V c 7 t : Vec Ideal S128x128 .f32) = (V c main_arg5 : S128x128.Idx → EReal) := by
  funext j
  show (V c main_arg5 : S128x128.Idx → EReal) (((cfg0.win 7).blk t).view.emb j) = _
  refine congrArg _ (funext fun a => Fin.ext ?_)
  match a with
  | ⟨0, _⟩ => show win0_7.index t (0 : Fin 2) * 128 + 1 * (j 0).val = (j 0).val; rw [(idx0_7 t).1]; omega
  | ⟨1, _⟩ => show win0_7.index t (1 : Fin 2) * 128 + 1 * (j 1).val = (j 1).val; rw [(idx0_7 t).2]; omega

/-- Window 8's block is its whole array at every point. -/
theorem whole0_8 (c : Dev nD) (t : Fin cfg0.N) :
    (iblk0 V c 8 t : Vec Ideal S1x128 .f32) = (V c main_v37 : S1x128.Idx → EReal) := by
  funext j
  show (V c main_v37 : S1x128.Idx → EReal) (((cfg0.win 8).blk t).view.emb j) = _
  refine congrArg _ (funext fun a => Fin.ext ?_)
  match a with
  | ⟨0, _⟩ => show win0_8.index t (0 : Fin 2) * 1 + 1 * (j 0).val = (j 0).val; rw [(idx0_8 t).1]; omega
  | ⟨1, _⟩ => show win0_8.index t (1 : Fin 2) * 128 + 1 * (j 1).val = (j 1).val; rw [(idx0_8 t).2]; omega

/-- Window 9's block is its whole array at every point. -/
theorem whole0_9 (c : Dev nD) (t : Fin cfg0.N) :
    (iblk0 V c 9 t : Vec Ideal S128x128 .f32) = (V c main_arg11 : S128x128.Idx → EReal) := by
  funext j
  show (V c main_arg11 : S128x128.Idx → EReal) (((cfg0.win 9).blk t).view.emb j) = _
  refine congrArg _ (funext fun a => Fin.ext ?_)
  match a with
  | ⟨0, _⟩ => show win0_9.index t (0 : Fin 2) * 128 + 1 * (j 0).val = (j 0).val; rw [(idx0_9 t).1]; omega
  | ⟨1, _⟩ => show win0_9.index t (1 : Fin 2) * 128 + 1 * (j 1).val = (j 1).val; rw [(idx0_9 t).2]; omega

/-- Window 10's block is its whole array at every point. -/
theorem whole0_10 (c : Dev nD) (t : Fin cfg0.N) :
    (iblk0 V c 10 t : Vec Ideal S1x128 .f32) = (V c main_v40 : S1x128.Idx → EReal) := by
  funext j
  show (V c main_v40 : S1x128.Idx → EReal) (((cfg0.win 10).blk t).view.emb j) = _
  refine congrArg _ (funext fun a => Fin.ext ?_)
  match a with
  | ⟨0, _⟩ => show win0_10.index t (0 : Fin 2) * 1 + 1 * (j 0).val = (j 0).val; rw [(idx0_10 t).1]; omega
  | ⟨1, _⟩ => show win0_10.index t (1 : Fin 2) * 128 + 1 * (j 1).val = (j 1).val; rw [(idx0_10 t).2]; omega

/-- Window 11's block is its whole array at every point. -/
theorem whole0_11 (c : Dev nD) (t : Fin cfg0.N) :
    (iblk0 V c 11 t : Vec Ideal S128x1 .f32) = (V c main_arg13 : S128x1.Idx → EReal) := by
  funext j
  show (V c main_arg13 : S128x1.Idx → EReal) (((cfg0.win 11).blk t).view.emb j) = _
  refine congrArg _ (funext fun a => Fin.ext ?_)
  match a with
  | ⟨0, _⟩ => show win0_11.index t (0 : Fin 2) * 128 + 1 * (j 0).val = (j 0).val; rw [(idx0_11 t).1]; omega
  | ⟨1, _⟩ => show win0_11.index t (1 : Fin 2) * 1 + 1 * (j 1).val = (j 1).val; rw [(idx0_11 t).2]; omega

/-- Element (p, q) of window 12's block at point t is row t·4000 + p of the array. -/
theorem emb0_12 (t : Fin cfg0.N) (p : Fin 4000) (q : Fin 128) :
    ((cfg0.win 12).blk t).view.emb (ix2 p q)
      = ix2 (⟨t.val * 4000 + p.val, by have := lt_N0 t; omega⟩ : Fin 800000) q := by
  funext a; apply Fin.ext
  match a with
  | ⟨0, _⟩ => show win0_12.index t (0 : Fin 2) * 4000 + 1 * p.val = t.val * 4000 + p.val; rw [(idx0_12 t).1]; omega
  | ⟨1, _⟩ => show win0_12.index t (1 : Fin 2) * 128 + 1 * q.val = q.val; rw [(idx0_12 t).2]; omega

/-- Element (p, q) of window 13's block at point t is row t·4000 + p of the array. -/
theorem emb0_13 (t : Fin cfg0.N) (p : Fin 4000) (q : Fin 3) :
    ((cfg0.win 13).blk t).view.emb (ix2 p q)
      = ix2 (⟨t.val * 4000 + p.val, by have := lt_N0 t; omega⟩ : Fin 800000) q := by
  funext a; apply Fin.ext
  match a with
  | ⟨0, _⟩ => show win0_13.index t (0 : Fin 2) * 4000 + 1 * p.val = t.val * 4000 + p.val; rw [(idx0_13 t).1]; omega
  | ⟨1, _⟩ => show win0_13.index t (1 : Fin 2) * 3 + 1 * q.val = q.val; rw [(idx0_13 t).2]; omega

/-- An index of the array is in point t's block of window 12 iff each coordinate is in the block's range. -/
theorem mem_blk0_12 (t : Fin cfg0.N) (i : S800000x128.Idx) :
    i ∈ ((cfg0.win 12).blk t).view.set ↔ ∀ a : Fin 2, win0_12.index t a * S4000x128.size a ≤ (i a).val ∧ (i a).val < win0_12.index t a * S4000x128.size a + S4000x128.size a := by
  show i ∈ ((View.whole main_v43_0).slice (win0_12.rect t)).set ↔ _
  rw [View.set_slice_whole, Rect.mem_set_unit]
  exact Iff.rfl

/-- Row r of the array lies in the block of point r / 4000: the blocks tile the rows. -/
theorem cover0_12 (i : S800000x128.Idx) :
    ∃ t : Fin cfg0.N, (cfg0.win 12).flush t = true ∧ i ∈ ((cfg0.win 12).blk t).view.set := by
  have hi0 : (i 0).val < 800000 := (i 0).isLt
  have hi1 : (i 1).val < 128 := (i 1).isLt
  have e : cfg0.N = 200 := N_0
  refine ⟨⟨(i 0).val / 4000, by omega⟩, flush0_12 _, ?_⟩
  rw [mem_blk0_12]
  intro a
  match a with
  | ⟨0, _⟩ =>
    show win0_12.index ⟨(i 0).val / 4000, _⟩ (0 : Fin 2) * 4000 ≤ (i 0).val ∧ (i 0).val < win0_12.index ⟨(i 0).val / 4000, _⟩ (0 : Fin 2) * 4000 + 4000
    rw [(idx0_12 _).1]
    show (i 0).val / 4000 * 4000 ≤ (i 0).val ∧ (i 0).val < (i 0).val / 4000 * 4000 + 4000
    omega
  | ⟨1, _⟩ =>
    show win0_12.index ⟨(i 0).val / 4000, _⟩ (1 : Fin 2) * 128 ≤ (i 1).val ∧ (i 1).val < win0_12.index ⟨(i 0).val / 4000, _⟩ (1 : Fin 2) * 128 + 128
    rw [(idx0_12 _).2]
    omega

/-- An index of the array is in point t's block of window 13 iff each coordinate is in the block's range. -/
theorem mem_blk0_13 (t : Fin cfg0.N) (i : S800000x3.Idx) :
    i ∈ ((cfg0.win 13).blk t).view.set ↔ ∀ a : Fin 2, win0_13.index t a * S4000x3.size a ≤ (i a).val ∧ (i a).val < win0_13.index t a * S4000x3.size a + S4000x3.size a := by
  show i ∈ ((View.whole main_v43_1).slice (win0_13.rect t)).set ↔ _
  rw [View.set_slice_whole, Rect.mem_set_unit]
  exact Iff.rfl

/-- Row r of the array lies in the block of point r / 4000: the blocks tile the rows. -/
theorem cover0_13 (i : S800000x3.Idx) :
    ∃ t : Fin cfg0.N, (cfg0.win 13).flush t = true ∧ i ∈ ((cfg0.win 13).blk t).view.set := by
  have hi0 : (i 0).val < 800000 := (i 0).isLt
  have hi1 : (i 1).val < 3 := (i 1).isLt
  have e : cfg0.N = 200 := N_0
  refine ⟨⟨(i 0).val / 4000, by omega⟩, flush0_13 _, ?_⟩
  rw [mem_blk0_13]
  intro a
  match a with
  | ⟨0, _⟩ =>
    show win0_13.index ⟨(i 0).val / 4000, _⟩ (0 : Fin 2) * 4000 ≤ (i 0).val ∧ (i 0).val < win0_13.index ⟨(i 0).val / 4000, _⟩ (0 : Fin 2) * 4000 + 4000
    rw [(idx0_13 _).1]
    show (i 0).val / 4000 * 4000 ≤ (i 0).val ∧ (i 0).val < (i 0).val / 4000 * 4000 + 4000
    omega
  | ⟨1, _⟩ =>
    show win0_13.index ⟨(i 0).val / 4000, _⟩ (1 : Fin 2) * 3 ≤ (i 1).val ∧ (i 1).val < win0_13.index ⟨(i 0).val / 4000, _⟩ (1 : Fin 2) * 3 + 3
    rw [(idx0_13 _).2]
    omega

/-! # The node region: 10 points, 5000 nodes a point -/

/-! ## The index maps of region 1, decided over its grid: a row-blocked window's block index is the point's number on the rows and 0 on the columns; a weight window's is 0 on both axes -/

theorem lt_N1 (t : Fin cfg1.N) : t.val < 10 := by
  have h : t.val < cfg1.N := t.isLt
  have e : cfg1.N = 10 := N_1
  omega

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)

/-! ## Where a block's element sits in its array, and the blocks read through that -/

/-- Element (p, q) of window 0's block at point t is row t·5000 + p of the array. -/
theorem emb1_0 (t : Fin cfg1.N) (p : Fin 5000) (q : Fin 128) :
    ((cfg1.win 0).blk t).view.emb (ix2 p q)
      = ix2 (⟨t.val * 5000 + p.val, by have := lt_N1 t; omega⟩ : Fin 50000) q := by
  funext a; apply Fin.ext
  match a with
  | ⟨0, _⟩ => show win1_0.index t (0 : Fin 2) * 5000 + 1 * p.val = t.val * 5000 + p.val; rw [(idx1_0 t).1]; omega
  | ⟨1, _⟩ => show win1_0.index t (1 : Fin 2) * 128 + 1 * q.val = q.val; rw [(idx1_0 t).2]; omega

theorem rows1_0 (c : Dev nD) (t : Fin cfg1.N) (p : Fin 5000) (q : Fin 128) :
    (iblk1 V c 0 t : Vec Ideal S5000x128 .f32) (ix2 p q)
      = (V c main_arg0 : S50000x128.Idx → EReal) (ix2 (⟨t.val * 5000 + p.val, by have := lt_N1 t; omega⟩ : Fin 50000) q) := by
  show (V c main_arg0 : S50000x128.Idx → EReal) (((cfg1.win 0).blk t).view.emb (ix2 p q)) = _
  rw [emb1_0]

/-- Element (p, q) of window 1's block at point t is row t·5000 + p of the array. -/
theorem emb1_1 (t : Fin cfg1.N) (p : Fin 5000) (q : Fin 128) :
    ((cfg1.win 1).blk t).view.emb (ix2 p q)
      = ix2 (⟨t.val * 5000 + p.val, by have := lt_N1 t; omega⟩ : Fin 50000) q := by
  funext a; apply Fin.ext
  match a with
  | ⟨0, _⟩ => show win1_1.index t (0 : Fin 2) * 5000 + 1 * p.val = t.val * 5000 + p.val; rw [(idx1_1 t).1]; omega
  | ⟨1, _⟩ => show win1_1.index t (1 : Fin 2) * 128 + 1 * q.val = q.val; rw [(idx1_1 t).2]; omega

theorem rows1_1 (c : Dev nD) (t : Fin cfg1.N) (p : Fin 5000) (q : Fin 128) :
    (iblk1 V c 1 t : Vec Ideal S5000x128 .f32) (ix2 p q)
      = (V c main_v46 : S50000x128.Idx → EReal) (ix2 (⟨t.val * 5000 + p.val, by have := lt_N1 t; omega⟩ : Fin 50000) q) := by
  show (V c main_v46 : S50000x128.Idx → EReal) (((cfg1.win 1).blk t).view.emb (ix2 p q)) = _
  rw [emb1_1]

/-- Window 2's block is its whole array at every point. -/
theorem whole1_2 (c : Dev nD) (t : Fin cfg1.N) :
    (iblk1 V c 2 t : Vec Ideal S128x128 .f32) = (V c main_v41 : S128x128.Idx → EReal) := by
  funext j
  show (V c main_v41 : S128x128.Idx → EReal) (((cfg1.win 2).blk t).view.emb j) = _
  refine congrArg _ (funext fun a => Fin.ext ?_)
  match a with
  | ⟨0, _⟩ => show win1_2.index t (0 : Fin 2) * 128 + 1 * (j 0).val = (j 0).val; rw [(idx1_2 t).1]; omega
  | ⟨1, _⟩ => show win1_2.index t (1 : Fin 2) * 128 + 1 * (j 1).val = (j 1).val; rw [(idx1_2 t).2]; omega

/-- Window 3's block is its whole array at every point. -/
theorem whole1_3 (c : Dev nD) (t : Fin cfg1.N) :
    (iblk1 V c 3 t : Vec Ideal S128x128 .f32) = (V c main_v42 : S128x128.Idx → EReal) := by
  funext j
  show (V c main_v42 : S128x128.Idx → EReal) (((cfg1.win 3).blk t).view.emb j) = _
  refine congrArg _ (funext fun a => Fin.ext ?_)
  match a with
  | ⟨0, _⟩ => show win1_3.index t (0 : Fin 2) * 128 + 1 * (j 0).val = (j 0).val; rw [(idx1_3 t).1]; omega
  | ⟨1, _⟩ => show win1_3.index t (1 : Fin 2) * 128 + 1 * (j 1).val = (j 1).val; rw [(idx1_3 t).2]; omega

/-- Window 4's block is its whole array at every point. -/
theorem whole1_4 (c : Dev nD) (t : Fin cfg1.N) :
    (iblk1 V c 4 t : Vec Ideal S1x128 .f32) = (V c main_v38 : S1x128.Idx → EReal) := by
  funext j
  show (V c main_v38 : S1x128.Idx → EReal) (((cfg1.win 4).blk t).view.emb j) = _
  refine congrArg _ (funext fun a => Fin.ext ?_)
  match a with
  | ⟨0, _⟩ => show win1_4.index t (0 : Fin 2) * 1 + 1 * (j 0).val = (j 0).val; rw [(idx1_4 t).1]; omega
  | ⟨1, _⟩ => show win1_4.index t (1 : Fin 2) * 128 + 1 * (j 1).val = (j 1).val; rw [(idx1_4 t).2]; omega

/-- Window 5's block is its whole array at every point. -/
theorem whole1_5 (c : Dev nD) (t : Fin cfg1.N) :
    (iblk1 V c 5 t : Vec Ideal S128x128 .f32) = (V c main_arg9 : S128x128.Idx → EReal) := by
  funext j
  show (V c main_arg9 : S128x128.Idx → EReal) (((cfg1.win 5).blk t).view.emb j) = _
  refine congrArg _ (funext fun a => Fin.ext ?_)
  match a with
  | ⟨0, _⟩ => show win1_5.index t (0 : Fin 2) * 128 + 1 * (j 0).val = (j 0).val; rw [(idx1_5 t).1]; omega
  | ⟨1, _⟩ => show win1_5.index t (1 : Fin 2) * 128 + 1 * (j 1).val = (j 1).val; rw [(idx1_5 t).2]; omega

/-- Window 6's block is its whole array at every point. -/
theorem whole1_6 (c : Dev nD) (t : Fin cfg1.N) :
    (iblk1 V c 6 t : Vec Ideal S1x128 .f32) = (V c main_v39 : S1x128.Idx → EReal) := by
  funext j
  show (V c main_v39 : S1x128.Idx → EReal) (((cfg1.win 6).blk t).view.emb j) = _
  refine congrArg _ (funext fun a => Fin.ext ?_)
  match a with
  | ⟨0, _⟩ => show win1_6.index t (0 : Fin 2) * 1 + 1 * (j 0).val = (j 0).val; rw [(idx1_6 t).1]; omega
  | ⟨1, _⟩ => show win1_6.index t (1 : Fin 2) * 128 + 1 * (j 1).val = (j 1).val; rw [(idx1_6 t).2]; omega

/-- Element (p, q) of window 7's block at point t is row t·5000 + p of the array. -/
theorem emb1_7 (t : Fin cfg1.N) (p : Fin 5000) (q : Fin 128) :
    ((cfg1.win 7).blk t).view.emb (ix2 p q)
      = ix2 (⟨t.val * 5000 + p.val, by have := lt_N1 t; omega⟩ : Fin 50000) q := by
  funext a; apply Fin.ext
  match a with
  | ⟨0, _⟩ => show win1_7.index t (0 : Fin 2) * 5000 + 1 * p.val = t.val * 5000 + p.val; rw [(idx1_7 t).1]; omega
  | ⟨1, _⟩ => show win1_7.index t (1 : Fin 2) * 128 + 1 * q.val = q.val; rw [(idx1_7 t).2]; omega

/-- An index of the array is in point t's block of window 7 iff each coordinate is in the block's range. -/
theorem mem_blk1_7 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v54).slice (win1_7.rect t)).set ↔ _
  rw [View.set_slice_whole, Rect.mem_set_unit]
  exact Iff.rfl

/-- Row r of the array lies in the block of point r / 5000: the blocks tile the rows. -/
theorem cover1_7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have e : cfg1.N = 10 := N_1
  refine ⟨⟨(i 0).val / 5000, by omega⟩, flush1_7 _, ?_⟩
  rw [mem_blk1_7]
  intro a
  match a with
  | ⟨0, _⟩ =>
    show win1_7.index ⟨(i 0).val / 5000, _⟩ (0 : Fin 2) * 5000 ≤ (i 0).val ∧ (i 0).val < win1_7.index ⟨(i 0).val / 5000, _⟩ (0 : Fin 2) * 5000 + 5000
    rw [(idx1_7 _).1]
    show (i 0).val / 5000 * 5000 ≤ (i 0).val ∧ (i 0).val < (i 0).val / 5000 * 5000 + 5000
    omega
  | ⟨1, _⟩ =>
    show win1_7.index ⟨(i 0).val / 5000, _⟩ (1 : Fin 2) * 128 ≤ (i 1).val ∧ (i 1).val < win1_7.index ⟨(i 0).val / 5000, _⟩ (1 : Fin 2) * 128 + 128
    rw [(idx1_7 _).2]
    omega

end Cert.KernelIdeal.BlockTables

end
-- ==== Proof.Spec.lean ====
/-
  One message-passing layer with coordinate updates, written row by row over the extended reals.

  An edge e joins a source row and a target row of the node features. With hr, hc the two gathered feature rows and
  cd the difference of the two gathered coordinate rows, the squared distance is sqDist = ∑_d cd(e,d)², the first
  edge layer is hidden(e,k) = silu(hr(e,·)·Wa(·,k) + hc(e,·)·Wb(·,k) + sqDist(e)·wr(k) + b0(k)) where Wa, Wb, wr are the
  three row bands of one 257-row weight matrix, the message is message(e,j) = silu(hidden(e,·)·W1(·,j) + b1(j)), the
  coordinate weight is coordWeight(e) = silu(message(e,·)·C0 + c0)·C1, and the coordinate update is
  cd(e,d) / sqrt(sqDist(e) + ε) · coordWeight(e). A node row n with its summed messages mi is updated to
  h(n,j) + (silu(h(n,·)·Na(·,κ) + mi(n,·)·Nb(·,κ) + n0(κ))·N1(·,j) + n1(j)), Na and Nb the two row bands of one
  256-row weight matrix. Every function here reads only row p of its row-indexed operands, so a block of rows of the
  result is the same function of the block of rows of the operands.
-/
import Idealize.ShloMosaic.PureOps.Ideal.Laws
import Idealize.ShloMosaic.Lib.ValueIdx

noncomputable section

open scoped BigOperators

namespace Cert.EquivariantLayer
open Idealize.ShloMosaic Idealize.ShloMosaic.ValueIdx

/-- An M × N array of extended reals. -/
abbrev Mat (M N : Nat) := (⟨2, ![M, N]⟩ : Shape).Idx → EReal

/-- x · σ(x), σ the logistic function 1 / (1 + e⁻ˣ). -/
def silu (x : EReal) : EReal := x * Ideal.logistic x

/-- Row p of l against column q of r. -/
def rowDot {M K N : Nat} (l : Mat M K) (r : Mat K N) (p : Fin M) (q : Fin N) : EReal :=
  ∑ κ : Fin K, l (ix2 p κ) * r (ix2 κ q)

/-- The squared length of row p of a three-column array. -/
def sqDist {M : Nat} (cd : Mat M 3) (p : Fin M) : EReal := ∑ d : Fin 3, cd (ix2 p d) * cd (ix2 p d)

/-- The first edge layer at (p, k). -/
def hidden {M : Nat} (hr hc : Mat M 128) (cd : Mat M 3) (Wa Wb : Mat 128 128) (wr b0 : Mat 1 128)
    (p : Fin M) (k : Fin 128) : EReal :=
  silu (((rowDot hr Wa p k + rowDot hc Wb p k) + sqDist cd p * wr (ix2 0 k)) + b0 (ix2 0 k))

/-- The edge message at (p, j). -/
def message {M : Nat} (hr hc : Mat M 128) (cd : Mat M 3) (Wa Wb : Mat 128 128) (wr b0 : Mat 1 128)
    (W1 : Mat 128 128) (b1 : Mat 1 128) (p : Fin M) (j : Fin 128) : EReal :=
  silu ((∑ κ : Fin 128, hidden hr hc cd Wa Wb wr b0 p κ * W1 (ix2 κ j)) + b1 (ix2 0 j))

/-- The scalar weight of edge p's coordinate update. -/
def coordWeight {M : Nat} (hr hc : Mat M 128) (cd : Mat M 3) (Wa Wb : Mat 128 128) (wr b0 : Mat 1 128)
    (W1 : Mat 128 128) (b1 : Mat 1 128) (C0 : Mat 128 128) (c0 : Mat 1 128) (C1 : Mat 128 1) (p : Fin M) : EReal :=
  ∑ κ : Fin 128, silu ((∑ κ' : Fin 128, message hr hc cd Wa Wb wr b0 W1 b1 p κ' * C0 (ix2 κ' κ)) + c0 (ix2 0 κ))
    * C1 (ix2 κ 0)

/-- The coordinate update of edge p at coordinate d: the normalised difference times the weight. -/
def coordUpdate {M : Nat} (hr hc : Mat M 128) (cd : Mat M 3) (Wa Wb : Mat 128 128) (wr b0 : Mat 1 128)
    (W1 : Mat 128 128) (b1 : Mat 1 128) (C0 : Mat 128 128) (c0 : Mat 1 128) (C1 : Mat 128 1) (p : Fin M) (d : Fin 3) :
    EReal :=
  Ideal.div (cd (ix2 p d)) (Ideal.sqrt (sqDist cd p + Ideal.ofBits .f32 0x322BCC77#32))
    * coordWeight hr hc cd Wa Wb wr b0 W1 b1 C0 c0 C1 p

/-- The updated node feature at (p, j). -/
def nodeOut {M : Nat} (h mi : Mat M 128) (Na Nb : Mat 128 128) (n0 : Mat 1 128) (N1 : Mat 128 128) (n1 : Mat 1 128)
    (p : Fin M) (j : Fin 128) : EReal :=
  h (ix2 p j)
    + ((∑ κ : Fin 128, silu ((rowDot h Na p κ + rowDot mi Nb p κ) + n0 (ix2 0 κ)) * N1 (ix2 κ j)) + n1 (ix2 0 j))

/-! ## Each function reads one row of its row-indexed operands -/

theorem rowDot_row {M M' K N : Nat} (l : Mat M K) (l' : Mat M' K) (r : Mat K N) (p : Fin M) (p' : Fin M') (q : Fin N)
    (hl : ∀ κ, l' (ix2 p' κ) = l (ix2 p κ)) : rowDot l' r p' q = rowDot l r p q := by
  unfold rowDot; exact Finset.sum_congr rfl fun κ _ => by rw [hl κ]

theorem sqDist_row {M M' : Nat} (cd : Mat M 3) (cd' : Mat M' 3) (p : Fin M) (p' : Fin M')
    (hcd : ∀ d, cd' (ix2 p' d) = cd (ix2 p d)) : sqDist cd' p' = sqDist cd p := by
  unfold sqDist; exact Finset.sum_congr rfl fun d _ => by rw [hcd d]

theorem hidden_row {M M' : Nat} (hr hc : Mat M 128) (cd : Mat M 3) (hr' hc' : Mat M' 128) (cd' : Mat M' 3)
    (Wa Wb : Mat 128 128) (wr b0 : Mat 1 128) (p : Fin M) (p' : Fin M')
    (h1 : ∀ κ, hr' (ix2 p' κ) = hr (ix2 p κ)) (h2 : ∀ κ, hc' (ix2 p' κ) = hc (ix2 p κ))
    (h3 : ∀ d, cd' (ix2 p' d) = cd (ix2 p d)) (k : Fin 128) :
    hidden hr' hc' cd' Wa Wb wr b0 p' k = hidden hr hc cd Wa Wb wr b0 p k := by
  unfold hidden
  rw [rowDot_row hr hr' Wa p p' k h1, rowDot_row hc hc' Wb p p' k h2, sqDist_row cd cd' p p' h3]

theorem message_row {M M' : Nat} (hr hc : Mat M 128) (cd : Mat M 3) (hr' hc' : Mat M' 128) (cd' : Mat M' 3)
    (Wa Wb : Mat 128 128) (wr b0 : Mat 1 128) (W1 : Mat 128 128) (b1 : Mat 1 128) (p : Fin M) (p' : Fin M')
    (h1 : ∀ κ, hr' (ix2 p' κ) = hr (ix2 p κ)) (h2 : ∀ κ, hc' (ix2 p' κ) = hc (ix2 p κ))
    (h3 : ∀ d, cd' (ix2 p' d) = cd (ix2 p d)) (j : Fin 128) :
    message hr' hc' cd' Wa Wb wr b0 W1 b1 p' j = message hr hc cd Wa Wb wr b0 W1 b1 p j := by
  unfold message
  simp only [hidden_row hr hc cd hr' hc' cd' Wa Wb wr b0 p p' h1 h2 h3]

theorem coordWeight_row {M M' : Nat} (hr hc : Mat M 128) (cd : Mat M 3) (hr' hc' : Mat M' 128) (cd' : Mat M' 3)
    (Wa Wb : Mat 128 128) (wr b0 : Mat 1 128) (W1 : Mat 128 128) (b1 : Mat 1 128) (C0 : Mat 128 128) (c0 : Mat 1 128)
    (C1 : Mat 128 1) (p : Fin M) (p' : Fin M')
    (h1 : ∀ κ, hr' (ix2 p' κ) = hr (ix2 p κ)) (h2 : ∀ κ, hc' (ix2 p' κ) = hc (ix2 p κ))
    (h3 : ∀ d, cd' (ix2 p' d) = cd (ix2 p d)) :
    coordWeight hr' hc' cd' Wa Wb wr b0 W1 b1 C0 c0 C1 p' = coordWeight hr hc cd Wa Wb wr b0 W1 b1 C0 c0 C1 p := by
  unfold coordWeight
  simp only [message_row hr hc cd hr' hc' cd' Wa Wb wr b0 W1 b1 p p' h1 h2 h3]

theorem coordUpdate_row {M M' : Nat} (hr hc : Mat M 128) (cd : Mat M 3) (hr' hc' : Mat M' 128) (cd' : Mat M' 3)
    (Wa Wb : Mat 128 128) (wr b0 : Mat 1 128) (W1 : Mat 128 128) (b1 : Mat 1 128) (C0 : Mat 128 128) (c0 : Mat 1 128)
    (C1 : Mat 128 1) (p : Fin M) (p' : Fin M')
    (h1 : ∀ κ, hr' (ix2 p' κ) = hr (ix2 p κ)) (h2 : ∀ κ, hc' (ix2 p' κ) = hc (ix2 p κ))
    (h3 : ∀ d, cd' (ix2 p' d) = cd (ix2 p d)) (d : Fin 3) :
    coordUpdate hr' hc' cd' Wa Wb wr b0 W1 b1 C0 c0 C1 p' d = coordUpdate hr hc cd Wa Wb wr b0 W1 b1 C0 c0 C1 p d := by
  unfold coordUpdate
  rw [coordWeight_row hr hc cd hr' hc' cd' Wa Wb wr b0 W1 b1 C0 c0 C1 p p' h1 h2 h3, sqDist_row cd cd' p p' h3, h3 d]

theorem nodeOut_row {M M' : Nat} (h mi : Mat M 128) (h' mi' : Mat M' 128) (Na Nb : Mat 128 128) (n0 : Mat 1 128)
    (N1 : Mat 128 128) (n1 : Mat 1 128) (p : Fin M) (p' : Fin M')
    (h1 : ∀ κ, h' (ix2 p' κ) = h (ix2 p κ)) (h2 : ∀ κ, mi' (ix2 p' κ) = mi (ix2 p κ)) (j : Fin 128) :
    nodeOut h' mi' Na Nb n0 N1 n1 p' j = nodeOut h mi Na Nb n0 N1 n1 p j := by
  unfold nodeOut
  rw [h1 j]
  simp only [fun κ => rowDot_row h h' Na p p' κ h1, fun κ => rowDot_row mi mi' Nb p p' κ h2]

end Cert.EquivariantLayer

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.KernelPayloads.lean ====
/-
  The kernel bodies' arithmetic read at an index, over the extended reals.

  Each value a kernel body stores is a fixed composition of elementwise operations, row and column broadcasts, one sum
  over the three coordinates of a row, and matrix products into a zero accumulator. Read at one index (p, q) every such
  operation is the same operation on entries: a product of arrays is the product of the entries, a [1, b] row broadcast
  reads the row at q, an [a, 1] column broadcast reads the column at p, the matrix product is the sum over κ of
  left (p, κ) * right (κ, q), and a change of format is the identity. Composing these readings, the edge kernel's two
  stored values at (p, j) and (p, d) are the specification's message and coordinate update of row p, and the node
  kernel's stored value at (p, j) is the specification's updated node feature. The sums are grouped on both sides in the
  same way, so no law of arithmetic is used.
-/
import proofs.«164863_j58875411693658_1_alg».proof.Proof.Gen.KernelIdeal.Skeleton
import proofs.«164863_j58875411693658_1_alg».proof.Proof.Spec
import proofs.«164863_j58875411693658_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.EquivariantLayer
open Cert.KernelIdeal Cert.KernelIdeal.Gen Idealize.ShloMosaic Idealize.ShloMosaic.ValueIdx Idealize.ShloMosaic.PlainDot

namespace KernelPayloads

/-! ## Two layout operations read at an index -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logistic function of an array, read at an index, is the logistic function of the entry. -/
theorem logistic_apply {s : Shape} {φ : FTy} (x : FVec Ideal s φ) (i : s.Idx) : logistic x i = Ideal.logistic (x i) := rfl

/-- The square root of an array, read at an index, is the square root of the entry. -/
theorem sqrt_apply {s : Shape} {φ : FTy} (x : FVec Ideal s φ) (i : s.Idx) : sqrt x i = Ideal.sqrt (x i) := rfl

/-! ## The reduced row index with a column put back -/

/-- Row p of the reduced index with the column d put back is (p, d). -/
theorem lift_row (p : Fin 4000) (d : Fin (S4000x3.size 1)) :
    Facts₀.reduces_S4000x3_S4000.lift (ix1 p) d = ix2 p (⟨d.val, d.isLt⟩ : Fin 3) := by
  funext c; apply Fin.ext
  fin_cases c <;> rfl

/-! ## The three matrix products' dimension numbers are plain -/

theorem plain_edge : IsPlain dot_S4000x128_S128x128_S4000x128_1_0_0_1_n_n := ⟨rfl, rfl, rfl, rfl, rfl, rfl⟩
theorem plain_edge_col : IsPlain dot_S4000x128_S128x1_S4000x1_1_0_0_1_n_n := ⟨rfl, rfl, rfl, rfl, rfl, rfl⟩
theorem plain_node : IsPlain dot_S5000x128_S128x128_S5000x128_1_0_0_1_n_n := ⟨rfl, rfl, rfl, rfl, rfl, rfl⟩

end KernelPayloads
open KernelPayloads

/-! ## The squared distance -/

/-- The sum of the squares of row p's three entries, kept as a one-column array: its entry of row p is the squared
    length of row p. -/
theorem pay4_apply (x2 : Vec Ideal S4000x3 .f32) (p : Fin 4000) (u : Fin 1) :
    k0_pay4 (F := Ideal) x2 (ix2 p u) = sqDist x2 p := by
  unfold k0_pay4 k0_pay3 sqDist
  simp only [shapeCast_self]
  refine (shapeCast_a_a1_apply _ _ p u).trans ?_
  refine (Ideal.multiReduction_add_single _ _ _ _ _ (ix1 p)).trans ?_
  refine Finset.sum_congr rfl fun d _ => ?_
  rw [lift_row p d]
  rfl

/-! ## The edge kernel -/

/-- The first edge layer at (p, k): the two feature rows against the two weight bands, plus the squared distance times
    the distance row, plus the bias, activated. -/
theorem pay7_apply (x0 x1 : Vec Ideal S4000x128 .f32) (x2 : Vec Ideal S4000x3 .f32) (x3 x4 : Vec Ideal S128x128 .f32)
    (x5 x6 : Vec Ideal S1x128 .f32) (p : Fin 4000) (k : Fin 128) :
    k0_pay7 (F := Ideal) x0 x1 x2 x3 x4 x5 x6 (ix2 p k) = hidden x0 x1 x2 x3 x4 x5 x6 p k := by
  unfold k0_pay7 hidden silu rowDot
  simp only [shapeCast_self, truncf_apply, mulf_apply, addf_apply, logistic_apply,
    matmul_zero_plain _ plain_edge, broadcastTo_1b_ab_apply, broadcastTo_a1_ab_apply, pay4_apply]

/-- The edge message at (p, j): row p of the first layer against column j of the second weight, plus the bias,
    activated. -/
theorem pay_message (x0 x1 : Vec Ideal S4000x128 .f32) (x2 : Vec Ideal S4000x3 .f32) (x3 x4 : Vec Ideal S128x128 .f32)
    (x5 x6 : Vec Ideal S1x128 .f32) (x7 : Vec Ideal S128x128 .f32) (x8 : Vec Ideal S1x128 .f32) (p : Fin 4000) (j : Fin 128) :
    k0_pay1 (F := Ideal) (k0_pay5 x7) (k0_pay6 x8) (k0_pay7 x0 x1 x2 x3 x4 x5 x6) (constant S4000x128 .f32 0x00000000#32) (ix2 p j)
      = message x0 x1 x2 x3 x4 x5 x6 x7 x8 p j := by
  unfold k0_pay1 k0_pay5 k0_pay6 message silu
  simp only [shapeCast_self, truncf_apply, mulf_apply, addf_apply, logistic_apply,
    matmul_zero_plain _ plain_edge, broadcastTo_1b_ab_apply, pay7_apply]

/-- The coordinate update at (p, d): the coordinate difference over the root of the squared distance plus ε, times
    the edge's scalar weight. -/
theorem pay_coordUpdate (x0 x1 : Vec Ideal S4000x128 .f32) (x2 : Vec Ideal S4000x3 .f32) (x3 x4 : Vec Ideal S128x128 .f32)
    (x5 x6 : Vec Ideal S1x128 .f32) (x7 : Vec Ideal S128x128 .f32) (x8 : Vec Ideal S1x128 .f32)
    (x9 : Vec Ideal S128x128 .f32) (x10 : Vec Ideal S1x128 .f32) (x11 : Vec Ideal S128x1 .f32) (p : Fin 4000) (d : Fin 3) :
    k0_pay2 (F := Ideal) (k0_pay3 x2) (k0_pay4 x2) (k0_pay5 x7) (k0_pay6 x8) (k0_pay7 x0 x1 x2 x3 x4 x5 x6)
        (constant S4000x128 .f32 0x00000000#32) x9 x10 x11 (ix2 p d)
      = coordUpdate x0 x1 x2 x3 x4 x5 x6 x7 x8 x9 x10 x11 p d := by
  unfold k0_pay2 k0_pay3 coordUpdate coordWeight silu
  simp only [shapeCast_self, truncf_apply, mulf_apply, addf_apply, divf_apply, logistic_apply, sqrt_apply, broadcast_apply,
    matmul_zero_plain _ plain_edge, matmul_zero_plain _ plain_edge_col, broadcastTo_1b_ab_apply, broadcastTo_a1_ab_apply,
    pay4_apply, pay_message]
  rfl

/-! ## The node kernel -/

/-- The updated node feature at (p, j): the feature plus the two-layer update of the feature row and the summed
    message row. -/
theorem pay_nodeOut (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (j : Fin 128) :
    k1_pay1 (F := Ideal) x0 x1 x2 x3 x4 x5 x6 (ix2 p j) = nodeOut x0 x1 x2 x3 x4 x5 x6 p j := by
  unfold k1_pay1 nodeOut silu rowDot
  simp only [shapeCast_self, truncf_apply, mulf_apply, addf_apply, logistic_apply,
    matmul_zero_plain _ plain_node, broadcastTo_1b_ab_apply]

end Cert.EquivariantLayer

end
-- ==== Proof.Blocks.lean ====
/-
  From blocks to arrays, for the two regions of the message-passing layer.

  The edge region runs over 200 points; at point t the three row-blocked operands (the two gathered feature arrays and
  the coordinate differences) are staged as rows t·4000 … t·4000 + 3999 and the nine weight operands whole, and the
  body's two stored values are, element by element, the message and the coordinate-update row functions of the staged
  blocks. Those functions read only row p of a row-blocked operand, so what point t writes back is rows
  t·4000 … of the message array and of the coordinate-update array OF THE WHOLE OPERAND ARRAYS; the blocks tile the
  rows, so after the region the two result arrays are those arrays. The node region is the same over 10 points of 5000
  rows with the node row function. All of it for ANY contents the region is entered with.
-/
import proofs.«164863_j58875411693658_1_alg».proof.Proof.BlockTables
import proofs.«164863_j58875411693658_1_alg».proof.Proof.KernelPayloads
import proofs.«164863_j58875411693658_1_alg».proof.Proof.Spec

set_option maxRecDepth 16384

noncomputable section

namespace Cert.KernelIdeal.Blocks

open Cert.KernelIdeal Cert.KernelIdeal.Gen Cert.KernelIdeal.BlockTables Cert.EquivariantLayer
open Idealize.ShloMosaic Idealize.ShloMosaic.TcCoe Idealize.ShloMosaic.ValueIdx Idealize.SL.Sem
open Idealize.ShloMosaic.Pipeline (Dat Cfg Window)

-- the buffer contents a region is entered with: every statement here holds for any of them
variable (V : (c : Dev nD) → (b : Ref sig .tc) → Buf (Elt Ideal) ((c : Thread nD τ).loc b))

theorem hz : (![0, 0] : Fin 2 → Nat) = fun _ => 0 := funext fun a => by fin_cases a <;> rfl

/-! ## The row functions as whole arrays -/

/-- The messages of all edges: row e is the message row of edge e. -/
def messageArr {M : Nat} (hr hc : Mat M 128) (cd : Mat M 3) (Wa Wb : Mat 128 128) (wr b0 : Mat 1 128)
    (W1 : Mat 128 128) (b1 : Mat 1 128) : Mat M 128 :=
  fun i => message hr hc cd Wa Wb wr b0 W1 b1 (i 0) (i 1)

/-- The coordinate updates of all edges. -/
def coordUpdateArr {M : Nat} (hr hc : Mat M 128) (cd : Mat M 3) (Wa Wb : Mat 128 128) (wr b0 : Mat 1 128)
    (W1 : Mat 128 128) (b1 : Mat 1 128) (C0 : Mat 128 128) (c0 : Mat 1 128) (C1 : Mat 128 1) : Mat M 3 :=
  fun i => coordUpdate hr hc cd Wa Wb wr b0 W1 b1 C0 c0 C1 (i 0) (i 1)

/-- The updated features of all nodes. -/
def nodeOutArr {M : Nat} (h mi : Mat M 128) (Na Nb : Mat 128 128) (n0 : Mat 1 128) (N1 : Mat 128 128) (n1 : Mat 1 128) :
    Mat M 128 :=
  fun i => nodeOut h mi Na Nb n0 N1 n1 (i 0) (i 1)

/-! # The edge region: 200 points, 4000 edges a point -/

/-! ## What a point writes back, and the two result arrays of the edge region -/

/-- The message array of the region's entry contents. -/
abbrev G12 (c : Dev nD) : S800000x128.Idx → EReal :=
  messageArr (V c main_v10) (V c main_v17) (V c main_v32) (V c main_v33) (V c main_v34) (V c main_v35) (V c main_v36)
    (V c main_arg5) (V c main_v37)

/-- The coordinate-update array of the region's entry contents. -/
abbrev G13 (c : Dev nD) : S800000x3.Idx → EReal :=
  coordUpdateArr (V c main_v10) (V c main_v17) (V c main_v32) (V c main_v33) (V c main_v34) (V c main_v35) (V c main_v36)
    (V c main_arg5) (V c main_v37) (V c main_arg11) (V c main_v40) (V c main_arg13)

/-- Point t writes back rows t·4000 … t·4000 + 3999 of the message array: the body's value at (p, q) is the message
    row function of the blocks, which reads only row p of the three row-blocked operands, and that row is row
    t·4000 + p of the arrays. -/
theorem flushed12_eq (c : Dev nD) (t : Fin cfg0.N) :
    (dat0 V c).flushed 12 t = ((cfg0.win 12).blk t).view.read (Elt Ideal) (G12 V c) := by
  show (cfg0.win 12).cut (grid0.coords t) ((dat0 V c).after 12 t) = _
  rw [after0_12]
  unfold out0_12
  rw [View.canon_unit_zero hz]
  simp only [View.ld_unit_zero (S := S4000x128) hz, View.ld_unit_zero (S := S4000x3) hz, View.ld_unit_zero (S := S128x128) hz,
    View.ld_unit_zero (S := S1x128) hz]
  rw [whole0_3 V c t, whole0_4 V c t, whole0_5 V c t, whole0_6 V c t, whole0_7 V c t, whole0_8 V c t]
  funext j
  obtain ⟨p, q, rfl⟩ : ∃ (p : Fin 4000) (q : Fin 128), j = ix2 p q := ⟨j 0, j 1, eq_ix2 j⟩
  refine (pay_message (iblk0 V c 0 t) (iblk0 V c 1 t) (iblk0 V c 2 t) (V c main_v33) (V c main_v34) (V c main_v35)
    (V c main_v36) (V c main_arg5) (V c main_v37) p q).trans ?_
  show _ = G12 V c (((cfg0.win 12).blk t).view.emb (ix2 p q))
  rw [emb0_12 t p q]
  exact message_row (V c main_v10) (V c main_v17) (V c main_v32) (iblk0 V c 0 t) (iblk0 V c 1 t) (iblk0 V c 2 t)
    (V c main_v33) (V c main_v34) (V c main_v35) (V c main_v36) (V c main_arg5) (V c main_v37)
    ⟨t.val * 4000 + p.val, by have := lt_N0 t; omega⟩ p (rows0_0 V c t p) (rows0_1 V c t p) (rows0_2 V c t p) q

/-- Point t writes back rows t·4000 … of the coordinate-update array, for the same reason. -/
theorem flushed13_eq (c : Dev nD) (t : Fin cfg0.N) :
    (dat0 V c).flushed 13 t = ((cfg0.win 13).blk t).view.read (Elt Ideal) (G13 V c) := by
  show (cfg0.win 13).cut (grid0.coords t) ((dat0 V c).after 13 t) = _
  rw [after0_13]
  unfold out0_13
  rw [View.canon_unit_zero hz]
  simp only [View.ld_unit_zero (S := S4000x128) hz, View.ld_unit_zero (S := S4000x3) hz, View.ld_unit_zero (S := S128x128) hz,
    View.ld_unit_zero (S := S1x128) hz, View.ld_unit_zero (S := S128x1) hz]
  rw [whole0_3 V c t, whole0_4 V c t, whole0_5 V c t, whole0_6 V c t, whole0_7 V c t, whole0_8 V c t, whole0_9 V c t,
    whole0_10 V c t, whole0_11 V c t]
  funext j
  obtain ⟨p, d, rfl⟩ : ∃ (p : Fin 4000) (d : Fin 3), j = ix2 p d := ⟨j 0, j 1, eq_ix2 j⟩
  refine (pay_coordUpdate (iblk0 V c 0 t) (iblk0 V c 1 t) (iblk0 V c 2 t) (V c main_v33) (V c main_v34) (V c main_v35)
    (V c main_v36) (V c main_arg5) (V c main_v37) (V c main_arg11) (V c main_v40) (V c main_arg13) p d).trans ?_
  show _ = G13 V c (((cfg0.win 13).blk t).view.emb (ix2 p d))
  rw [emb0_13 t p d]
  exact coordUpdate_row (V c main_v10) (V c main_v17) (V c main_v32) (iblk0 V c 0 t) (iblk0 V c 1 t) (iblk0 V c 2 t)
    (V c main_v33) (V c main_v34) (V c main_v35) (V c main_v36) (V c main_arg5) (V c main_v37) (V c main_arg11)
    (V c main_v40) (V c main_arg13)
    ⟨t.val * 4000 + p.val, by have := lt_N0 t; omega⟩ p (rows0_0 V c t p) (rows0_1 V c t p) (rows0_2 V c t p) d

/-- After the edge region the first result array is the message array of the entry contents. -/
theorem final12 (c : Dev nD) : (dat0 V c).arrAt 12 cfg0.N = G12 V c :=
  (dat0 V c).arrAt_eq_of_cover 12 (G12 V c) (fun t _ => flushed12_eq V c t) cover0_12

/-- … and the second the coordinate-update array. -/
theorem final13 (c : Dev nD) : (dat0 V c).arrAt 13 cfg0.N = G13 V c :=
  (dat0 V c).arrAt_eq_of_cover 13 (G13 V c) (fun t _ => flushed13_eq V c t) cover0_13

/-! # The node region: 10 points, 5000 nodes a point -/

/-- The updated-feature array of the region's entry contents. -/
abbrev G7 (c : Dev nD) : S50000x128.Idx → EReal :=
  nodeOutArr (V c main_arg0) (V c main_v46) (V c main_v41) (V c main_v42) (V c main_v38) (V c main_arg9) (V c main_v39)

/-- Point t writes back rows t·5000 … t·5000 + 4999 of the updated-feature array. -/
theorem flushed7_eq (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  rw [whole1_2 V c t, whole1_3 V c t, whole1_4 V c t, whole1_5 V c t, whole1_6 V c t]
  funext j
  obtain ⟨p, q, rfl⟩ : ∃ (p : Fin 5000) (q : Fin 128), j = ix2 p q := ⟨j 0, j 1, eq_ix2 j⟩
  refine (pay_nodeOut (iblk1 V c 0 t) (iblk1 V c 1 t) (V c main_v41) (V c main_v42) (V c main_v38) (V c main_arg9)
    (V c main_v39) p q).trans ?_
  show _ = G7 V c (((cfg1.win 7).blk t).view.emb (ix2 p q))
  rw [emb1_7 t p q]
  exact nodeOut_row (V c main_arg0) (V c main_v46) (iblk1 V c 0 t) (iblk1 V c 1 t) (V c main_v41) (V c main_v42)
    (V c main_v38) (V c main_arg9) (V c main_v39)
    ⟨t.val * 5000 + p.val, by have := lt_N1 t; omega⟩ p (rows1_0 V c t p) (rows1_1 V c t p) q

/-- After the node region the result array is the updated-feature array of the entry contents. -/
theorem final7 (c : Dev nD) : (dat1 V c).arrAt 7 cfg1.N = G7 V c :=
  (dat1 V c).arrAt_eq_of_cover 7 (G7 V c) (fun t _ => flushed7_eq V c t) cover1_7

end Cert.KernelIdeal.Blocks

end
-- ==== Proof.ReferenceStages.lean ====
/-
  Three stages of the reference computation, each read at one index over the extended reals and shown equal to the
  specification's row function of the gathered arrays.

  An edge's joined feature row is [hr(e,·), hc(e,·), sqDist(e)], of length 257 = 128 + 128 + 1; its product with the
  257-row weight matrix, ∑_{c<257} row(e,c)·W(c,k), splits along that decomposition into
  (hr(e,·)·Wa(·,k) + hc(e,·)·Wb(·,k)) + sqDist(e)·wr(k), Wa, Wb, wr the three row bands of W. The squared length is
  0 + ∑_d cd(e,d)·cd(e,d). Each activation x · (1 / (1 + e⁻ˣ)), the ones given by their bit pattern, is the
  specification's silu. With these, the first edge layer, the edge message, the scalar coordinate weight and the
  coordinate update of the reference are the specification's functions of the gathered rows, sum by sum. A node's joined
  row [h(n,·), mi(n,·)] of length 256 = 128 + 128 against the 256-row matrix splits the same way into two 128-term
  products; the reference adds the residual h(n,j) before the last bias and the specification after it, which is
  associativity of addition. The weight bands and bias rows enter as arbitrary arrays that agree with the reference's
  arguments on the stated entries.
-/
import proofs.«164863_j58875411693658_1_alg».proof.Proof.Gen.ReferenceIdeal.Read
import proofs.«164863_j58875411693658_1_alg».proof.Proof.Spec
import proofs.«164863_j58875411693658_1_alg».proof.Proof.LibPlainDot
import Idealize.ShloMosaic.Lib.Pipeline.Value
import Idealize.ShloMosaic.Lib.ValueIdx
import Idealize.ShloMosaic.PureOps.Ideal.Laws
import Idealize.ShloMosaic.PureOps.IdealRules
import Mathlib.Algebra.BigOperators.Fin

noncomputable section

open scoped BigOperators

namespace Cert.EquivariantLayer
open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

set_option quotPrecheck false in
local notation "𝔽[" S "]" => (⟨S, .f32⟩ : BufTy).Contents (Elt Ideal)
set_option quotPrecheck false in
local notation "𝕀[" S "]" => (⟨S, .i32⟩ : BufTy).Contents (Elt Ideal)

/-! ## Scalars, indices, sums -/

/-- The bit pattern 0x3F800000 is the number one. -/
theorem ref_ofBits_one : Ideal.ofBits .f32 0x3F800000#32 = 1 := IdealRules.sign_bit.ideal_onePat .f32

/-- x · (1 / (1 + e⁻ˣ)) with the two ones given by their bit pattern is the specification's silu. -/
theorem ref_silu_inline (x : EReal) :
    x * Ideal.div (Ideal.ofBits .f32 0x3F800000#32) (Ideal.ofBits .f32 0x3F800000#32 + Ideal.exp (-x)) = silu x := by
  rw [ref_ofBits_one]; rfl

/-- Two rank-2 indices with the same two coordinates are equal. -/
theorem ref_idx2_ext {n0 n1 : Nat} (u v : (⟨2, ![n0, n1]⟩ : Shape).Idx) (h0 : (u 0).val = (v 0).val)
    (h1 : (u 1).val = (v 1).val) : u = v := by
  funext a
  match a with
  | ⟨0, _⟩ => exact Fin.ext h0
  | ⟨1, _⟩ => exact Fin.ext h1

/-- A sum over 257 = 128 + 128 + 1 positions is the sum over the first 128, plus the sum over the next 128, plus the
    last term. -/
theorem ref_sum_split_257 {M : Type*} [AddCommMonoid M] (f : Fin 257 → M) :
    ∑ k : Fin 257, f k
      = (∑ κ : Fin 128, f ⟨κ.val, by omega⟩ + ∑ κ : Fin 128, f ⟨128 + κ.val, by omega⟩) + f ⟨256, by omega⟩ :=
  (Fin.sum_univ_castSucc (n := 256) f).trans
    (congrArg (· + f (Fin.last 256)) (Fin.sum_univ_add (a := 128) (b := 128) (fun i => f (Fin.castSucc i))))

/-- A sum over 256 = 128 + 128 positions is the sum over the first 128 plus the sum over the last 128. -/
theorem ref_sum_split_256 {M : Type*} [AddCommMonoid M] (f : Fin 256 → M) :
    ∑ k : Fin 256, f k = ∑ κ : Fin 128, f ⟨κ.val, by omega⟩ + ∑ κ : Fin 128, f ⟨128 + κ.val, by omega⟩ :=
  Fin.sum_univ_add (a := 128) (b := 128) f

/-! ## The two joins along the column axis, read at an index -/

section Joins
variable {α : Type}

/-- Columns 0 … 127 of the 257-column join are the first piece. -/
theorem ref_cat3_left (HR HC : S800000x128.Idx → α) (D : S800000x1.Idx → α) (p : Fin 800000) (κ : Fin 128) :
    concatenate S800000x257 1 [⟨S800000x128, HR⟩, ⟨S800000x128, HC⟩, ⟨S800000x1, D⟩]
        concatenates_S800000x128_S800000x128_S800000x1_S800000x257_d1 (ix2 p (⟨κ.val, by omega⟩ : Fin 257))
      = HR (ix2 p κ) := by
  refine concatenate_apply_piece (t := S800000x257) 1 [⟨S800000x128, HR⟩, ⟨S800000x128, HC⟩, ⟨S800000x1, D⟩]
    concatenates_S800000x128_S800000x128_S800000x1_S800000x257_d1 _ 0 (by show (0 : Nat) < 3; omega) S800000x128 HR rfl rfl
    0 rfl (ix2 p κ) ?_ ?_
  · intro b hb
    match b with
    | ⟨0, _⟩ => rfl
    | ⟨1, _⟩ => exact absurd rfl hb
  · show 0 + κ.val = κ.val; omega

/-- Columns 128 … 255 of the 257-column join are the second piece. -/
theorem ref_cat3_mid (HR HC : S800000x128.Idx → α) (D : S800000x1.Idx → α) (p : Fin 800000) (κ : Fin 128) :
    concatenate S800000x257 1 [⟨S800000x128, HR⟩, ⟨S800000x128, HC⟩, ⟨S800000x1, D⟩]
        concatenates_S800000x128_S800000x128_S800000x1_S800000x257_d1 (ix2 p (⟨128 + κ.val, by omega⟩ : Fin 257))
      = HC (ix2 p κ) := by
  refine concatenate_apply_piece (t := S800000x257) 1 [⟨S800000x128, HR⟩, ⟨S800000x128, HC⟩, ⟨S800000x1, D⟩]
    concatenates_S800000x128_S800000x128_S800000x1_S800000x257_d1 _ 1 (by show (1 : Nat) < 3; omega) S800000x128 HC rfl rfl
    128 rfl (ix2 p κ) ?_ ?_
  · intro b hb
    match b with
    | ⟨0, _⟩ => rfl
    | ⟨1, _⟩ => exact absurd rfl hb
  · rfl

/-- Column 256 of the 257-column join is the one-column third piece. -/
theorem ref_cat3_last (HR HC : S800000x128.Idx → α) (D : S800000x1.Idx → α) (p : Fin 800000) :
    concatenate S800000x257 1 [⟨S800000x128, HR⟩, ⟨S800000x128, HC⟩, ⟨S800000x1, D⟩]
        concatenates_S800000x128_S800000x128_S800000x1_S800000x257_d1 (ix2 p (⟨256, by omega⟩ : Fin 257))
      = D (ix2 p (0 : Fin 1)) := by
  refine concatenate_apply_piece (t := S800000x257) 1 [⟨S800000x128, HR⟩, ⟨S800000x128, HC⟩, ⟨S800000x1, D⟩]
    concatenates_S800000x128_S800000x128_S800000x1_S800000x257_d1 _ 2 (by show (2 : Nat) < 3; omega) S800000x1 D rfl rfl
    256 rfl (ix2 p (0 : Fin 1)) ?_ ?_
  · intro b hb
    match b with
    | ⟨0, _⟩ => rfl
    | ⟨1, _⟩ => exact absurd rfl hb
  · rfl

/-- Columns 0 … 127 of the 256-column join are the first piece. -/
theorem ref_cat2_left (H MI : S50000x128.Idx → α) (p : Fin 50000) (κ : Fin 128) :
    concatenate S50000x256 1 [⟨S50000x128, H⟩, ⟨S50000x128, MI⟩] concatenates_S50000x128_S50000x128_S50000x256_d1
        (ix2 p (⟨κ.val, by omega⟩ : Fin 256)) = H (ix2 p κ) := by
  refine concatenate_pair_apply_left (t := S50000x256) 1 H MI concatenates_S50000x128_S50000x128_S50000x256_d1 _ rfl
    (ix2 p κ) ?_
  intro b
  match b with
  | ⟨0, _⟩ => rfl
  | ⟨1, _⟩ => rfl

/-- Columns 128 … 255 of the 256-column join are the second piece. -/
theorem ref_cat2_right (H MI : S50000x128.Idx → α) (p : Fin 50000) (κ : Fin 128) :
    concatenate S50000x256 1 [⟨S50000x128, H⟩, ⟨S50000x128, MI⟩] concatenates_S50000x128_S50000x128_S50000x256_d1
        (ix2 p (⟨128 + κ.val, by omega⟩ : Fin 256)) = MI (ix2 p κ) := by
  refine concatenate_pair_apply_right (t := S50000x256) 1 H MI concatenates_S50000x128_S50000x128_S50000x256_d1 _ rfl rfl
    (ix2 p κ) ?_ ?_
  · intro b hb
    match b with
    | ⟨0, _⟩ => rfl
    | ⟨1, _⟩ => exact absurd rfl hb
  · show κ.val + 128 = 128 + κ.val; omega

end Joins

/-! ## The edge layers -/

/-- The broadcast squared length at (p, 0) is the sum over the three coordinates of the squared difference. -/
theorem ref_sqDist (x1 : 𝔽[S50000x3]) (x2 : 𝕀[S2x800000]) (p : Fin 800000) :
    val_main_v21 (F := Ideal) x1 x2 (ix2 p (0 : Fin 1)) = sqDist (val_main_v18 x1 x2) p := by
  rw [val_main_v21_apply, val_main_v20_apply]
  have h0 : (val_main_cst (F := Ideal)) (Shape.Idx.first h_S_) = 0 := Ideal.ofBits_zero_f32
  rw [h0, zero_add]
  unfold sqDist
  refine Finset.sum_congr rfl fun k _ => ?_
  have hk : idx_main_v20 (idx_main_v21 (ix2 p (0 : Fin 1))) k = ix2 p k := ref_idx2_ext _ _ rfl rfl
  rw [hk]
  exact val_main_v19_apply x1 x2 (ix2 p k)

/-- Columns 0 … 127 of the joined edge features are the first gathered feature row. -/
theorem ref_v36_left (x0 : 𝔽[S50000x128]) (x1 : 𝔽[S50000x3]) (x2 : 𝕀[S2x800000]) (p : Fin 800000) (κ : Fin 128) :
    val_main_v36 (F := Ideal) x0 x1 x2 (ix2 p (⟨κ.val, by omega⟩ : Fin 257)) = val_main_v28 x0 x2 (ix2 p κ) := by
  unfold val_main_v36; exact ref_cat3_left _ _ _ p κ

/-- Columns 128 … 255 of the joined edge features are the second gathered feature row. -/
theorem ref_v36_mid (x0 : 𝔽[S50000x128]) (x1 : 𝔽[S50000x3]) (x2 : 𝕀[S2x800000]) (p : Fin 800000) (κ : Fin 128) :
    val_main_v36 (F := Ideal) x0 x1 x2 (ix2 p (⟨128 + κ.val, by omega⟩ : Fin 257)) = val_main_v35 x0 x2 (ix2 p κ) := by
  unfold val_main_v36; exact ref_cat3_mid _ _ _ p κ

/-- Column 256 of the joined edge features is the squared length of the coordinate difference. -/
theorem ref_v36_last (x0 : 𝔽[S50000x128]) (x1 : 𝔽[S50000x3]) (x2 : 𝕀[S2x800000]) (p : Fin 800000) :
    val_main_v36 (F := Ideal) x0 x1 x2 (ix2 p (⟨256, by omega⟩ : Fin 257)) = sqDist (val_main_v18 x1 x2) p := by
  unfold val_main_v36; exact (ref_cat3_last _ _ _ p).trans (ref_sqDist x1 x2 p)

/-- The first edge product at (p, k): the joined row against the 257-row matrix splits into the two 128-term row
    products with the two upper bands plus the squared length times the last row. -/
theorem ref_v37 (x0 : 𝔽[S50000x128]) (x1 : 𝔽[S50000x3]) (x2 : 𝕀[S2x800000]) (x3 : 𝔽[S257x128]) (Wa Wb : Mat 128 128) (wr : Mat 1 128)
    (hWa : ∀ κ k : Fin 128, Wa (ix2 κ k) = x3 (ix2 (⟨κ.val, by omega⟩ : Fin 257) k))
    (hWb : ∀ κ k : Fin 128, Wb (ix2 κ k) = x3 (ix2 (⟨128 + κ.val, by omega⟩ : Fin 257) k))
    (hwr : ∀ k : Fin 128, wr (ix2 0 k) = x3 (ix2 (⟨256, by omega⟩ : Fin 257) k)) (p : Fin 800000) (k : Fin 128) :
    val_main_v37 (F := Ideal) x0 x1 x2 x3 (ix2 p k)
      = (rowDot (val_main_v28 x0 x2) Wa p k + rowDot (val_main_v35 x0 x2) Wb p k) + sqDist (val_main_v18 x1 x2) p * wr (ix2 0 k) := by
  refine (val_main_v37_apply x0 x1 x2 x3 (ix2 p k)).trans ?_
  have hre : ∀ c : Fin 257, val_main_v36 (F := Ideal) x0 x1 x2 (lidx_main_v37 (ix2 p k) c) * x3 (ridx_main_v37 (ix2 p k) c)
      = val_main_v36 (F := Ideal) x0 x1 x2 (ix2 p c) * x3 (ix2 c k) := fun c =>
    congrArg₂ (· * ·) (congrArg _ (ref_idx2_ext _ _ rfl rfl)) (congrArg x3 (ref_idx2_ext _ _ rfl rfl))
  refine (Finset.sum_congr rfl fun c _ => hre c).trans ?_
  refine (ref_sum_split_257 (fun c : Fin 257 => val_main_v36 (F := Ideal) x0 x1 x2 (ix2 p c) * x3 (ix2 c k))).trans ?_
  refine congrArg₂ (· + ·) (congrArg₂ (· + ·) ?_ ?_) ?_
  · exact Finset.sum_congr rfl fun κ _ => congrArg₂ (· * ·) (ref_v36_left x0 x1 x2 p κ) (hWa κ k).symm
  · exact Finset.sum_congr rfl fun κ _ => congrArg₂ (· * ·) (ref_v36_mid x0 x1 x2 p κ) (hWb κ k).symm
  · exact congrArg₂ (· * ·) (ref_v36_last x0 x1 x2 p) (hwr k).symm

/-- The bias vector broadcast over rows, read at (p, k): entry k of the vector. -/
theorem ref_v39 (x4 : 𝔽[S128]) (p : Fin 800000) (k : Fin 128) :
    val_main_v39 (F := Ideal) x4 (ix2 p k) = x4 (ix1 k) := by
  rw [val_main_v39_apply, val_main_v38_apply]
  exact congrArg x4 (funext fun a => match a with | ⟨0, _⟩ => rfl)

/-- Stage v41 is x · (1 / (1 + e⁻ˣ)) of stage v40, entry by entry. -/
theorem ref_v41_silu (x0 : 𝔽[S50000x128]) (x1 : 𝔽[S50000x3]) (x2 : 𝕀[S2x800000]) (x3 : 𝔽[S257x128]) (x4 : 𝔽[S128]) (i : S800000x128.Idx) :
    val_main_v41 (F := Ideal) x0 x1 x2 x3 x4 i = silu (val_main_v40 (F := Ideal) x0 x1 x2 x3 x4 i) := by
  rw [val_main_v41_apply, val_main_call0_v5_apply, val_main_call0_v3_apply, val_main_call0_v1_apply,
    val_main_call0_v0_apply, val_main_call0_v4_apply, val_main_call0_v2_apply, val_main_call0_cst_apply,
    val_main_call0_cst_0_apply]
  exact ref_silu_inline _

/-- The first edge layer of the reference at (p, k) is the specification's hidden layer of the gathered rows. -/
theorem ref_hidden (x0 : 𝔽[S50000x128]) (x1 : 𝔽[S50000x3]) (x2 : 𝕀[S2x800000]) (x3 : 𝔽[S257x128]) (x4 : 𝔽[S128]) (Wa Wb : Mat 128 128) (wr b0 : Mat 1 128)
    (hWa : ∀ κ k : Fin 128, Wa (ix2 κ k) = x3 (ix2 (⟨κ.val, by omega⟩ : Fin 257) k))
    (hWb : ∀ κ k : Fin 128, Wb (ix2 κ k) = x3 (ix2 (⟨128 + κ.val, by omega⟩ : Fin 257) k))
    (hwr : ∀ k : Fin 128, wr (ix2 0 k) = x3 (ix2 (⟨256, by omega⟩ : Fin 257) k))
    (hb0 : ∀ k : Fin 128, b0 (ix2 0 k) = x4 (ix1 k)) (p : Fin 800000) (k : Fin 128) :
    val_main_v41 (F := Ideal) x0 x1 x2 x3 x4 (ix2 p k) = hidden (val_main_v28 x0 x2) (val_main_v35 x0 x2) (val_main_v18 x1 x2) Wa Wb wr b0 p k := by
  rw [ref_v41_silu, val_main_v40_apply, ref_v37 x0 x1 x2 x3 Wa Wb wr hWa hWb hwr p k, ref_v39, ← hb0 k]
  rfl

/-- The bias vector broadcast over rows, read at (p, k): entry k of the vector. -/
theorem ref_v44 (x6 : 𝔽[S128]) (p : Fin 800000) (k : Fin 128) :
    val_main_v44 (F := Ideal) x6 (ix2 p k) = x6 (ix1 k) := by
  rw [val_main_v44_apply, val_main_v43_apply]
  exact congrArg x6 (funext fun a => match a with | ⟨0, _⟩ => rfl)

/-- Stage v46 is x · (1 / (1 + e⁻ˣ)) of stage v45, entry by entry. -/
theorem ref_v46_silu (x0 : 𝔽[S50000x128]) (x1 : 𝔽[S50000x3]) (x2 : 𝕀[S2x800000]) (x3 : 𝔽[S257x128]) (x4 : 𝔽[S128]) (x5 : 𝔽[S128x128]) (x6 : 𝔽[S128]) (i : S800000x128.Idx) :
    val_main_v46 (F := Ideal) x0 x1 x2 x3 x4 x5 x6 i = silu (val_main_v45 (F := Ideal) x0 x1 x2 x3 x4 x5 x6 i) := by
  rw [val_main_v46_apply, val_main_call1_v5_apply, val_main_call1_v3_apply, val_main_call1_v1_apply,
    val_main_call1_v0_apply, val_main_call1_v4_apply, val_main_call1_v2_apply, val_main_call1_cst_apply,
    val_main_call1_cst_0_apply]
  exact ref_silu_inline _

/-- The edge message of the reference at (p, j) is the specification's message of the gathered rows. -/
theorem ref_message (x0 : 𝔽[S50000x128]) (x1 : 𝔽[S50000x3]) (x2 : 𝕀[S2x800000]) (x3 : 𝔽[S257x128]) (x4 : 𝔽[S128]) (x5 : 𝔽[S128x128]) (x6 : 𝔽[S128]) (Wa Wb : Mat 128 128) (wr b0 b1 : Mat 1 128)
    (hWa : ∀ κ k : Fin 128, Wa (ix2 κ k) = x3 (ix2 (⟨κ.val, by omega⟩ : Fin 257) k))
    (hWb : ∀ κ k : Fin 128, Wb (ix2 κ k) = x3 (ix2 (⟨128 + κ.val, by omega⟩ : Fin 257) k))
    (hwr : ∀ k : Fin 128, wr (ix2 0 k) = x3 (ix2 (⟨256, by omega⟩ : Fin 257) k))
    (hb0 : ∀ k : Fin 128, b0 (ix2 0 k) = x4 (ix1 k)) (hb1 : ∀ k : Fin 128, b1 (ix2 0 k) = x6 (ix1 k))
    (p : Fin 800000) (j : Fin 128) :
    val_main_v46 (F := Ideal) x0 x1 x2 x3 x4 x5 x6 (ix2 p j) = message (val_main_v28 x0 x2) (val_main_v35 x0 x2) (val_main_v18 x1 x2) Wa Wb wr b0 x5 b1 p j := by
  rw [ref_v46_silu, val_main_v45_apply, val_main_v42_apply, ref_v44, ← hb1 j]
  unfold message
  refine congrArg silu (congrArg (· + b1 (ix2 0 j)) (Finset.sum_congr rfl fun κ _ => ?_))
  have e1 : lidx_main_v42 (ix2 p j) κ = ix2 p κ := ref_idx2_ext _ _ rfl rfl
  have e2 : ridx_main_v42 (ix2 p j) κ = ix2 κ j := ref_idx2_ext _ _ rfl rfl
  rw [e1, e2, ref_hidden x0 x1 x2 x3 x4 Wa Wb wr b0 hWa hWb hwr hb0 p κ]

/-! ## The coordinate update -/

/-- The bias vector broadcast over rows, read at (p, k): entry k of the vector. -/
theorem ref_v49 (x12 : 𝔽[S128]) (p : Fin 800000) (k : Fin 128) :
    val_main_v49 (F := Ideal) x12 (ix2 p k) = x12 (ix1 k) := by
  rw [val_main_v49_apply, val_main_v48_apply]
  exact congrArg x12 (funext fun a => match a with | ⟨0, _⟩ => rfl)

/-- Stage v51 is x · (1 / (1 + e⁻ˣ)) of stage v50, entry by entry. -/
theorem ref_v51_silu (x0 : 𝔽[S50000x128]) (x1 : 𝔽[S50000x3]) (x2 : 𝕀[S2x800000]) (x3 : 𝔽[S257x128]) (x4 : 𝔽[S128]) (x5 : 𝔽[S128x128]) (x6 : 𝔽[S128]) (x11 : 𝔽[S128x128]) (x12 : 𝔽[S128]) (i : S800000x128.Idx) :
    val_main_v51 (F := Ideal) x0 x1 x2 x3 x4 x5 x6 x11 x12 i = silu (val_main_v50 (F := Ideal) x0 x1 x2 x3 x4 x5 x6 x11 x12 i) := by
  rw [val_main_v51_apply, val_main_call2_v5_apply, val_main_call2_v3_apply, val_main_call2_v1_apply,
    val_main_call2_v0_apply, val_main_call2_v4_apply, val_main_call2_v2_apply, val_main_call2_cst_apply,
    val_main_call2_cst_0_apply]
  exact ref_silu_inline _

/-- The scalar weight of the reference at edge p is the specification's coordinate weight of the gathered rows. -/
theorem ref_coordWeight (x0 : 𝔽[S50000x128]) (x1 : 𝔽[S50000x3]) (x2 : 𝕀[S2x800000]) (x3 : 𝔽[S257x128]) (x4 : 𝔽[S128]) (x5 : 𝔽[S128x128]) (x6 : 𝔽[S128]) (x11 : 𝔽[S128x128]) (x12 : 𝔽[S128]) (x13 : 𝔽[S128x1]) (Wa Wb : Mat 128 128) (wr b0 b1 : Mat 1 128)
    (hWa : ∀ κ k : Fin 128, Wa (ix2 κ k) = x3 (ix2 (⟨κ.val, by omega⟩ : Fin 257) k))
    (hWb : ∀ κ k : Fin 128, Wb (ix2 κ k) = x3 (ix2 (⟨128 + κ.val, by omega⟩ : Fin 257) k))
    (hwr : ∀ k : Fin 128, wr (ix2 0 k) = x3 (ix2 (⟨256, by omega⟩ : Fin 257) k))
    (hb0 : ∀ k : Fin 128, b0 (ix2 0 k) = x4 (ix1 k)) (hb1 : ∀ k : Fin 128, b1 (ix2 0 k) = x6 (ix1 k))
    (c0 : Mat 1 128) (hc0 : ∀ k : Fin 128, c0 (ix2 0 k) = x12 (ix1 k)) (p : Fin 800000) :
    val_main_v52 (F := Ideal) x0 x1 x2 x3 x4 x5 x6 x11 x12 x13 (ix2 p (0 : Fin 1))
      = coordWeight (val_main_v28 x0 x2) (val_main_v35 x0 x2) (val_main_v18 x1 x2) Wa Wb wr b0 x5 b1 x11 c0 x13 p := by
  rw [val_main_v52_apply]
  unfold coordWeight
  refine Finset.sum_congr rfl fun κ _ => ?_
  have e1 : lidx_main_v52 (ix2 p (0 : Fin 1)) κ = ix2 p κ := ref_idx2_ext _ _ rfl rfl
  have e2 : ridx_main_v52 (ix2 p (0 : Fin 1)) κ = ix2 κ (0 : Fin 1) := ref_idx2_ext _ _ rfl rfl
  rw [e1, e2, ref_v51_silu, val_main_v50_apply, val_main_v47_apply, ref_v49, ← hc0 κ]
  refine congrArg (fun t => silu (t + c0 (ix2 0 κ)) * x13 (ix2 κ 0)) (Finset.sum_congr rfl fun κ' _ => ?_)
  have e3 : lidx_main_v47 (ix2 p κ) κ' = ix2 p κ' := ref_idx2_ext _ _ rfl rfl
  have e4 : ridx_main_v47 (ix2 p κ) κ' = ix2 κ' κ := ref_idx2_ext _ _ rfl rfl
  rw [e3, e4, ref_message x0 x1 x2 x3 x4 x5 x6 Wa Wb wr b0 b1 hWa hWb hwr hb0 hb1 p κ']

/-- The coordinate update of the reference at (p, d) is the specification's coordinate update of the gathered rows. -/
theorem ref_coordUpdate (x0 : 𝔽[S50000x128]) (x1 : 𝔽[S50000x3]) (x2 : 𝕀[S2x800000]) (x3 : 𝔽[S257x128]) (x4 : 𝔽[S128]) (x5 : 𝔽[S128x128]) (x6 : 𝔽[S128]) (x11 : 𝔽[S128x128]) (x12 : 𝔽[S128]) (x13 : 𝔽[S128x1]) (Wa Wb : Mat 128 128) (wr b0 b1 : Mat 1 128)
    (hWa : ∀ κ k : Fin 128, Wa (ix2 κ k) = x3 (ix2 (⟨κ.val, by omega⟩ : Fin 257) k))
    (hWb : ∀ κ k : Fin 128, Wb (ix2 κ k) = x3 (ix2 (⟨128 + κ.val, by omega⟩ : Fin 257) k))
    (hwr : ∀ k : Fin 128, wr (ix2 0 k) = x3 (ix2 (⟨256, by omega⟩ : Fin 257) k))
    (hb0 : ∀ k : Fin 128, b0 (ix2 0 k) = x4 (ix1 k)) (hb1 : ∀ k : Fin 128, b1 (ix2 0 k) = x6 (ix1 k))
    (c0 : Mat 1 128) (hc0 : ∀ k : Fin 128, c0 (ix2 0 k) = x12 (ix1 k)) (p : Fin 800000) (d : Fin 3) :
    val_main_v59 (F := Ideal) x0 x1 x2 x3 x4 x5 x6 x11 x12 x13 (ix2 p d)
      = coordUpdate (val_main_v28 x0 x2) (val_main_v35 x0 x2) (val_main_v18 x1 x2) Wa Wb wr b0 x5 b1 x11 c0 x13 p d := by
  rw [val_main_v59_apply, val_main_v57_apply, val_main_v58_apply, val_main_v56_apply, val_main_v55_apply,
    val_main_v54_apply, val_main_v53_apply, val_main_cst_7_apply]
  have e1 : idx_main_v58 (ix2 p d) = ix2 p (0 : Fin 1) := ref_idx2_ext _ _ rfl rfl
  have e2 : idx_main_v56 (ix2 p d) = ix2 p (0 : Fin 1) := ref_idx2_ext _ _ rfl rfl
  rw [e1, e2, ref_sqDist,
    ref_coordWeight x0 x1 x2 x3 x4 x5 x6 x11 x12 x13 Wa Wb wr b0 b1 hWa hWb hwr hb0 hb1 c0 hc0 p]
  rfl

/-! ## The node layer -/

/-- Columns 0 … 127 of the joined node features are the node's own features. -/
theorem ref_v63_left (x0 : 𝔽[S50000x128]) (x1 : 𝔽[S50000x3]) (x2 : 𝕀[S2x800000]) (x3 : 𝔽[S257x128]) (x4 : 𝔽[S128]) (x5 : 𝔽[S128x128]) (x6 : 𝔽[S128]) (p : Fin 50000) (κ : Fin 128) :
    val_main_v63 (F := Ideal) x0 x1 x2 x3 x4 x5 x6 (ix2 p (⟨κ.val, by omega⟩ : Fin 256)) = x0 (ix2 p κ) := by
  unfold val_main_v63; exact ref_cat2_left _ _ p κ

/-- Columns 128 … 255 of the joined node features are the node's summed messages. -/
theorem ref_v63_right (x0 : 𝔽[S50000x128]) (x1 : 𝔽[S50000x3]) (x2 : 𝕀[S2x800000]) (x3 : 𝔽[S257x128]) (x4 : 𝔽[S128]) (x5 : 𝔽[S128x128]) (x6 : 𝔽[S128]) (p : Fin 50000) (κ : Fin 128) :
    val_main_v63 (F := Ideal) x0 x1 x2 x3 x4 x5 x6 (ix2 p (⟨128 + κ.val, by omega⟩ : Fin 256)) = (val_main_v62 x0 x1 x2 x3 x4 x5 x6) (ix2 p κ) := by
  unfold val_main_v63; exact ref_cat2_right _ _ p κ

/-- The first node product at (p, k): the joined row against the 256-row matrix splits into the two 128-term row
    products with the two bands. -/
theorem ref_v64 (x0 : 𝔽[S50000x128]) (x1 : 𝔽[S50000x3]) (x2 : 𝕀[S2x800000]) (x3 : 𝔽[S257x128]) (x4 : 𝔽[S128]) (x5 : 𝔽[S128x128]) (x6 : 𝔽[S128]) (x7 : 𝔽[S256x128]) (Na Nb : Mat 128 128)
    (hNa : ∀ κ k : Fin 128, Na (ix2 κ k) = x7 (ix2 (⟨κ.val, by omega⟩ : Fin 256) k))
    (hNb : ∀ κ k : Fin 128, Nb (ix2 κ k) = x7 (ix2 (⟨128 + κ.val, by omega⟩ : Fin 256) k)) (p : Fin 50000) (k : Fin 128) :
    val_main_v64 (F := Ideal) x0 x1 x2 x3 x4 x5 x6 x7 (ix2 p k) = rowDot x0 Na p k + rowDot (val_main_v62 x0 x1 x2 x3 x4 x5 x6) Nb p k := by
  refine (val_main_v64_apply x0 x1 x2 x3 x4 x5 x6 x7 (ix2 p k)).trans ?_
  have hre : ∀ c : Fin 256, val_main_v63 (F := Ideal) x0 x1 x2 x3 x4 x5 x6 (lidx_main_v64 (ix2 p k) c) * x7 (ridx_main_v64 (ix2 p k) c)
      = val_main_v63 (F := Ideal) x0 x1 x2 x3 x4 x5 x6 (ix2 p c) * x7 (ix2 c k) := fun c =>
    congrArg₂ (· * ·) (congrArg _ (ref_idx2_ext _ _ rfl rfl)) (congrArg x7 (ref_idx2_ext _ _ rfl rfl))
  refine (Finset.sum_congr rfl fun c _ => hre c).trans ?_
  refine (ref_sum_split_256 (fun c : Fin 256 => val_main_v63 (F := Ideal) x0 x1 x2 x3 x4 x5 x6 (ix2 p c) * x7 (ix2 c k))).trans ?_
  refine congrArg₂ (· + ·) ?_ ?_
  · exact Finset.sum_congr rfl fun κ _ => congrArg₂ (· * ·) (ref_v63_left x0 x1 x2 x3 x4 x5 x6 p κ) (hNa κ k).symm
  · exact Finset.sum_congr rfl fun κ _ => congrArg₂ (· * ·) (ref_v63_right x0 x1 x2 x3 x4 x5 x6 p κ) (hNb κ k).symm

/-- The bias vector broadcast over rows, read at (p, k): entry k of the vector. -/
theorem ref_v66 (x8 : 𝔽[S128]) (p : Fin 50000) (k : Fin 128) :
    val_main_v66 (F := Ideal) x8 (ix2 p k) = x8 (ix1 k) := by
  rw [val_main_v66_apply, val_main_v65_apply]
  exact congrArg x8 (funext fun a => match a with | ⟨0, _⟩ => rfl)

/-- Stage v68 is x · (1 / (1 + e⁻ˣ)) of stage v67, entry by entry. -/
theorem ref_v68_silu (x0 : 𝔽[S50000x128]) (x1 : 𝔽[S50000x3]) (x2 : 𝕀[S2x800000]) (x3 : 𝔽[S257x128]) (x4 : 𝔽[S128]) (x5 : 𝔽[S128x128]) (x6 : 𝔽[S128]) (x7 : 𝔽[S256x128]) (x8 : 𝔽[S128]) (i : S50000x128.Idx) :
    val_main_v68 (F := Ideal) x0 x1 x2 x3 x4 x5 x6 x7 x8 i = silu (val_main_v67 (F := Ideal) x0 x1 x2 x3 x4 x5 x6 x7 x8 i) := by
  rw [val_main_v68_apply, val_main_call3_v5_apply, val_main_call3_v3_apply, val_main_call3_v1_apply,
    val_main_call3_v0_apply, val_main_call3_v4_apply, val_main_call3_v2_apply, val_main_call3_cst_apply,
    val_main_call3_cst_0_apply]
  exact ref_silu_inline _

/-- The bias vector broadcast over rows, read at (p, k): entry k of the vector. -/
theorem ref_v72 (x10 : 𝔽[S128]) (p : Fin 50000) (k : Fin 128) :
    val_main_v72 (F := Ideal) x10 (ix2 p k) = x10 (ix1 k) := by
  rw [val_main_v72_apply, val_main_v71_apply]
  exact congrArg x10 (funext fun a => match a with | ⟨0, _⟩ => rfl)

/-- The updated node feature of the reference at (p, j) is the specification's node update of the node features and the
    summed messages; the reference adds the residual before the last bias, the specification after it. -/
theorem ref_nodeOut (x0 : 𝔽[S50000x128]) (x1 : 𝔽[S50000x3]) (x2 : 𝕀[S2x800000]) (x3 : 𝔽[S257x128]) (x4 : 𝔽[S128]) (x5 : 𝔽[S128x128]) (x6 : 𝔽[S128]) (x7 : 𝔽[S256x128]) (x8 : 𝔽[S128]) (x9 : 𝔽[S128x128]) (x10 : 𝔽[S128]) (Na Nb : Mat 128 128) (n0 n1 : Mat 1 128)
    (hNa : ∀ κ k : Fin 128, Na (ix2 κ k) = x7 (ix2 (⟨κ.val, by omega⟩ : Fin 256) k))
    (hNb : ∀ κ k : Fin 128, Nb (ix2 κ k) = x7 (ix2 (⟨128 + κ.val, by omega⟩ : Fin 256) k))
    (hn0 : ∀ k : Fin 128, n0 (ix2 0 k) = x8 (ix1 k)) (hn1 : ∀ k : Fin 128, n1 (ix2 0 k) = x10 (ix1 k))
    (p : Fin 50000) (j : Fin 128) :
    val_main_v73 (F := Ideal) x0 x1 x2 x3 x4 x5 x6 x7 x8 x9 x10 (ix2 p j) = nodeOut x0 (val_main_v62 x0 x1 x2 x3 x4 x5 x6) Na Nb n0 x9 n1 p j := by
  rw [val_main_v73_apply, val_main_v70_apply, val_main_v69_apply, ref_v72, ← hn1 j]
  unfold nodeOut
  refine (add_assoc (x0 (ix2 p j)) _ (n1 (ix2 0 j))).trans ?_
  refine congrArg (fun t => x0 (ix2 p j) + (t + n1 (ix2 0 j))) (Finset.sum_congr rfl fun κ _ => ?_)
  have e1 : lidx_main_v69 (ix2 p j) κ = ix2 p κ := ref_idx2_ext _ _ rfl rfl
  have e2 : ridx_main_v69 (ix2 p j) κ = ix2 κ j := ref_idx2_ext _ _ rfl rfl
  rw [e1, e2, ref_v68_silu, val_main_v67_apply, ref_v64 x0 x1 x2 x3 x4 x5 x6 x7 Na Nb hNa hNb p κ, ref_v66, ← hn0 κ]
  rfl

end Cert.EquivariantLayer

end
-- ==== Proof.KernelHost.lean ====
/-
  The kernel program's host stretches, and with them its two results, as the reference's own stage functions of the
  argument arrays.

  Before the edge region the program gathers the two feature rows and the two coordinate rows of every edge, takes the
  coordinate difference, cuts the first weight matrix into its three row bands and the node layer's into its two, and
  turns each bias vector into a one-row matrix: the same operations, on the same arguments, as the reference's. So the
  edge region is entered with the reference's gathered arrays and with bands that read the weight matrices where the
  reference's products do; by the row-function lemmas its two result arrays are then the reference's message array and
  coordinate-update array. Between the regions both programs sum the messages, the coordinate updates and the constant
  one over the edges of each target node with one and the same scatter-add, so the node region is entered with the
  reference's summed messages and leaves the reference's first result. After it both programs finish the coordinates
  with the same quotient and sum: the reference's second result.
-/
import proofs.«164863_j58875411693658_1_alg».proof.Proof.Blocks
import proofs.«164863_j58875411693658_1_alg».proof.Proof.ReferenceStages
import Idealize.ShloMosaic.Lib.StableHlo.Run
import Idealize.ShloMosaic.Lib.ValueLayout

set_option maxRecDepth 16384

noncomputable section

namespace Cert.KernelIdeal.HostValues

open Cert.KernelIdeal Cert.KernelIdeal.Gen Cert.KernelIdeal.Blocks Cert.EquivariantLayer
open Idealize.ShloMosaic Idealize.ShloMosaic.TcCoe Idealize.ShloMosaic.ValueIdx Idealize.SL.Sem
open Idealize.ShloMosaic.StableHlo (after after_cons after_nil)
open Cert.ReferenceIdeal.Read (val_main_v1 val_main_v18 val_main_v28 val_main_v35 val_main_v46 val_main_v59 val_main_v60 val_main_v61
  val_main_v62 val_main_v73 val_main_v74 val_main_v75 val_main_v76 val_main_v77 val_main_v78 val_main_v79 val_main_v80 val_main_v81
  val_main_v82 val_main_v83 val_main_v84 val_main_v85 val_main_v86)

/-! ## The stretches' values as the reference's stage functions, for any float values

Both programs apply the same host operations to the same operands, so each value below is the reference's stage function
by definition; no arithmetic enters, and the equations hold for any family of float values. -/

section Shapes
variable {F : FTy → Type} [FloatOps F] (W : Valuation τ sig (Elt F))

/-- The target-node index of every edge. -/
theorem before_idx : after hostOps0 W (Proc.devRef .tc main_v1) = val_main_v1 (F := F) (W (Proc.devRef .tc main_arg2)) := by
  after_results_simp
  rfl

/-- The gathered feature rows of the target nodes. -/
theorem before_hr : after hostOps0 W (Proc.devRef .tc main_v10)
    = val_main_v28 (F := F) (W (Proc.devRef .tc main_arg0)) (W (Proc.devRef .tc main_arg2)) := by
  after_results_simp
  rfl

/-- The gathered feature rows of the source nodes. -/
theorem before_hc : after hostOps0 W (Proc.devRef .tc main_v17)
    = val_main_v35 (F := F) (W (Proc.devRef .tc main_arg0)) (W (Proc.devRef .tc main_arg2)) := by
  after_results_simp
  rfl

/-- The coordinate differences. -/
theorem before_cd : after hostOps0 W (Proc.devRef .tc main_v32)
    = val_main_v18 (F := F) (W (Proc.devRef .tc main_arg1)) (W (Proc.devRef .tc main_arg2)) := by
  after_results_simp
  rfl

variable (x2 : (⟨S2x800000, .i32⟩ : BufTy).Contents (Elt F)) (hidx : W (Proc.devRef .tc main_v1) = val_main_v1 (F := F) x2)
include hidx

/-- Between the regions the messages are summed over the edges of each target node by the reference's scatter-add. -/
theorem between_mi : after hostOps1 W (Proc.devRef .tc main_v46)
    = Host.scatterAdd Cert.ReferenceIdeal.scatter_S50000x128_S800000x1_S800000x128_1_0_0_1 (val_main_v60 (F := F))
        (val_main_v61 (F := F) x2) (W (Proc.devRef .tc main_v43_0)) := by
  after_results_simp
  rw [hidx]
  rfl

/-- … the coordinate updates likewise … -/
theorem between_pu : after hostOps1 W (Proc.devRef .tc main_v49)
    = Host.scatterAdd Cert.ReferenceIdeal.scatter_S50000x3_S800000x1_S800000x3_1_0_0_1 (val_main_v74 (F := F))
        (val_main_v75 (F := F) x2) (W (Proc.devRef .tc main_v43_1)) := by
  after_results_simp
  rw [hidx]
  rfl

/-- … and the constant one, which gives the in-degrees. -/
theorem between_deg : after hostOps1 W (Proc.devRef .tc main_v53) = val_main_v80 (F := F) x2 := by
  after_results_simp
  rw [hidx]
  rfl

omit hidx in
/-- After the node region the coordinates are finished by the reference's quotient and sum. -/
theorem after_pos (hdeg : W (Proc.devRef .tc main_v53) = val_main_v80 (F := F) x2) : after hostOps2 W (Proc.devRef .tc main_v60)
    = addf (W (Proc.devRef .tc main_arg1)) (Host.divf (W (Proc.devRef .tc main_v49)) (val_main_v84 (F := F) x2)) := by
  after_results_simp
  rw [hdeg]
  rfl

end Shapes

/-! ## The weight bands and the bias rows before the edge region, entry by entry, from any contents -/

section Before
variable (W : Valuation τ sig (Elt Ideal))

/-- The first band of the edge layer's weight matrix reads rows 0 … 127 of it. -/
theorem before_Wa (κ k : Fin 128) : (after hostOps0 W (Proc.devRef .tc main_v33) : S128x128.Idx → EReal) (ix2 κ k)
    = (W (Proc.devRef .tc main_arg3) : S257x128.Idx → EReal) (ix2 (⟨κ.val, by omega⟩ : Fin 257) k) := by
  after_results_simp
  exact slice2_axis0_apply 0 _ _ κ k _ (Nat.zero_add _).symm

/-- The second band reads rows 128 … 255. -/
theorem before_Wb (κ k : Fin 128) : (after hostOps0 W (Proc.devRef .tc main_v34) : S128x128.Idx → EReal) (ix2 κ k)
    = (W (Proc.devRef .tc main_arg3) : S257x128.Idx → EReal) (ix2 (⟨128 + κ.val, by omega⟩ : Fin 257) k) := by
  after_results_simp
  exact slice2_axis0_apply 128 _ _ κ k _ rfl

/-- The last band is row 256. -/
theorem before_wr (k : Fin 128) : (after hostOps0 W (Proc.devRef .tc main_v35) : S1x128.Idx → EReal) (ix2 (0 : Fin 1) k)
    = (W (Proc.devRef .tc main_arg3) : S257x128.Idx → EReal) (ix2 (⟨256, by omega⟩ : Fin 257) k) := by
  after_results_simp
  exact slice2_axis0_apply 256 _ _ (0 : Fin 1) k _ rfl

/-- The node layer's first band reads rows 0 … 127 of its weight matrix. -/
theorem before_Na (κ k : Fin 128) : (after hostOps0 W (Proc.devRef .tc main_v41) : S128x128.Idx → EReal) (ix2 κ k)
    = (W (Proc.devRef .tc main_arg7) : S256x128.Idx → EReal) (ix2 (⟨κ.val, by omega⟩ : Fin 256) k) := by
  after_results_simp
  exact slice2_axis0_apply 0 _ _ κ k _ (Nat.zero_add _).symm

/-- Its second band reads rows 128 … 255. -/
theorem before_Nb (κ k : Fin 128) : (after hostOps0 W (Proc.devRef .tc main_v42) : S128x128.Idx → EReal) (ix2 κ k)
    = (W (Proc.devRef .tc main_arg7) : S256x128.Idx → EReal) (ix2 (⟨128 + κ.val, by omega⟩ : Fin 256) k) := by
  after_results_simp
  exact slice2_axis0_apply 128 _ _ κ k _ rfl

/-- The one-row matrix of the first edge layer's bias reads the bias vector. -/
theorem before_b0 (k : Fin 128) : (after hostOps0 W (Proc.devRef .tc main_v36) : S1x128.Idx → EReal) (ix2 (0 : Fin 1) k)
    = (W (Proc.devRef .tc main_arg4) : S128.Idx → EReal) (ix1 k) := by
  after_results_simp
  exact shapeCast_a_1a_apply _ _ (0 : Fin 1) k

/-- The one-row matrix of the second edge layer's bias reads the bias vector. -/
theorem before_b1 (k : Fin 128) : (after hostOps0 W (Proc.devRef .tc main_v37) : S1x128.Idx → EReal) (ix2 (0 : Fin 1) k)
    = (W (Proc.devRef .tc main_arg6) : S128.Idx → EReal) (ix1 k) := by
  after_results_simp
  exact shapeCast_a_1a_apply _ _ (0 : Fin 1) k

/-- The one-row matrix of the first node layer's bias reads the bias vector. -/
theorem before_n0 (k : Fin 128) : (after hostOps0 W (Proc.devRef .tc main_v38) : S1x128.Idx → EReal) (ix2 (0 : Fin 1) k)
    = (W (Proc.devRef .tc main_arg8) : S128.Idx → EReal) (ix1 k) := by
  after_results_simp
  exact shapeCast_a_1a_apply _ _ (0 : Fin 1) k

/-- The one-row matrix of the second node layer's bias reads the bias vector. -/
theorem before_n1 (k : Fin 128) : (after hostOps0 W (Proc.devRef .tc main_v39) : S1x128.Idx → EReal) (ix2 (0 : Fin 1) k)
    = (W (Proc.devRef .tc main_arg10) : S128.Idx → EReal) (ix1 k) := by
  after_results_simp
  exact shapeCast_a_1a_apply _ _ (0 : Fin 1) k

/-- The one-row matrix of the coordinate layer's bias reads the bias vector. -/
theorem before_c0 (k : Fin 128) : (after hostOps0 W (Proc.devRef .tc main_v40) : S1x128.Idx → EReal) (ix2 (0 : Fin 1) k)
    = (W (Proc.devRef .tc main_arg12) : S128.Idx → EReal) (ix1 k) := by
  after_results_simp
  exact shapeCast_a_1a_apply _ _ (0 : Fin 1) k

theorem before_keep0 : after hostOps0 W (Proc.devRef .tc main_arg0) = W (Proc.devRef .tc main_arg0) := by
  after_results_simp
theorem before_keep1 : after hostOps0 W (Proc.devRef .tc main_arg1) = W (Proc.devRef .tc main_arg1) := by
  after_results_simp
theorem before_keep5 : after hostOps0 W (Proc.devRef .tc main_arg5) = W (Proc.devRef .tc main_arg5) := by
  after_results_simp
theorem before_keep9 : after hostOps0 W (Proc.devRef .tc main_arg9) = W (Proc.devRef .tc main_arg9) := by
  after_results_simp
theorem before_keep11 : after hostOps0 W (Proc.devRef .tc main_arg11) = W (Proc.devRef .tc main_arg11) := by
  after_results_simp
theorem before_keep13 : after hostOps0 W (Proc.devRef .tc main_arg13) = W (Proc.devRef .tc main_arg13) := by
  after_results_simp

end Before

/-! ## From the launch memory -/

variable (m : (ℓ : Loc nD τ sig) → Buf (Elt Ideal) ℓ) (ρ : Dev nD → PrngReg) (c : Dev nD)

theorem hr_eq : V1 m ρ c main_v10 = val_main_v28 (F := Ideal) (m ((c : Thread nD τ).loc main_arg0)) (m ((c : Thread nD τ).loc main_arg2)) := before_hr (W0 m ρ c)
theorem hc_eq : V1 m ρ c main_v17 = val_main_v35 (F := Ideal) (m ((c : Thread nD τ).loc main_arg0)) (m ((c : Thread nD τ).loc main_arg2)) := before_hc (W0 m ρ c)
theorem cd_eq : V1 m ρ c main_v32 = val_main_v18 (F := Ideal) (m ((c : Thread nD τ).loc main_arg1)) (m ((c : Thread nD τ).loc main_arg2)) := before_cd (W0 m ρ c)
theorem W1_eq5 : V1 m ρ c main_arg5 = (m ((c : Thread nD τ).loc main_arg5)) := before_keep5 (W0 m ρ c)
theorem W1_eq11 : V1 m ρ c main_arg11 = (m ((c : Thread nD τ).loc main_arg11)) := before_keep11 (W0 m ρ c)
theorem W1_eq13 : V1 m ρ c main_arg13 = (m ((c : Thread nD τ).loc main_arg13)) := before_keep13 (W0 m ρ c)

/-- The edge region's first result array, computed from the gathered arrays it is entered with, is the reference's
    message array. -/
theorem msg_eq : G12 (V1 m ρ) c = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨p, j, rfl⟩ : ∃ (p : Fin 800000) (j : Fin 128), i = ix2 p j := ⟨i 0, i 1, eq_ix2 i⟩
  show message (V1 m ρ c main_v10) (V1 m ρ c main_v17) (V1 m ρ c main_v32) (V1 m ρ c main_v33) (V1 m ρ c main_v34)
    (V1 m ρ c main_v35) (V1 m ρ c main_v36) (V1 m ρ c main_arg5) (V1 m ρ c main_v37) p j = _
  rw [hr_eq m ρ c, hc_eq m ρ c, cd_eq m ρ c, W1_eq5 m ρ c]
  exact (ref_message (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (V1 m ρ c main_v33) (V1 m ρ c main_v34) (V1 m ρ c main_v35) (V1 m ρ c main_v36) (V1 m ρ c main_v37)
    (before_Wa (W0 m ρ c)) (before_Wb (W0 m ρ c)) (before_wr (W0 m ρ c)) (before_b0 (W0 m ρ c)) (before_b1 (W0 m ρ c)) p j).symm

/-- … and its second the reference's coordinate-update array. -/
theorem cu_eq : G13 (V1 m ρ) c = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  funext i
  obtain ⟨p, d, rfl⟩ : ∃ (p : Fin 800000) (d : Fin 3), i = ix2 p d := ⟨i 0, i 1, eq_ix2 i⟩
  show coordUpdate (V1 m ρ c main_v10) (V1 m ρ c main_v17) (V1 m ρ c main_v32) (V1 m ρ c main_v33) (V1 m ρ c main_v34)
    (V1 m ρ c main_v35) (V1 m ρ c main_v36) (V1 m ρ c main_arg5) (V1 m ρ c main_v37) (V1 m ρ c main_arg11) (V1 m ρ c main_v40)
    (V1 m ρ c main_arg13) p d = _
  rw [hr_eq m ρ c, hc_eq m ρ c, cd_eq m ρ c, W1_eq5 m ρ c, W1_eq11 m ρ c, W1_eq13 m ρ c]
  exact (ref_coordUpdate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13))
    (V1 m ρ c main_v33) (V1 m ρ c main_v34) (V1 m ρ c main_v35) (V1 m ρ c main_v36) (V1 m ρ c main_v37)
    (before_Wa (W0 m ρ c)) (before_Wb (W0 m ρ c)) (before_wr (W0 m ρ c)) (before_b0 (W0 m ρ c)) (before_b1 (W0 m ρ c))
    (V1 m ρ c main_v40) (before_c0 (W0 m ρ c)) p d).symm

/-! ## At the edge region's exit -/

theorem exit_msg : W2 m ρ c (Proc.devRef .tc main_v43_0) = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W2_arr m ρ c 12).trans (final12 (V1 m ρ) c)).trans (msg_eq m ρ c)

theorem exit_cu : W2 m ρ c (Proc.devRef .tc main_v43_1) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) :=
  ((W2_arr m ρ c 13).trans (final13 (V1 m ρ) c)).trans (cu_eq m ρ c)

theorem exit_idx : W2 m ρ c (Proc.devRef .tc main_v1) = val_main_v1 (F := Ideal) (m ((c : Thread nD τ).loc main_arg2)) :=
  (W2_of_ne m ρ c main_v1 (by decide)).trans (before_idx (W0 m ρ c))

/-! ## The stretch between the regions: the three sums over the edges of each target node -/

/-- The summed messages the node region is entered with are the reference's. -/
theorem entry_mi : V3 m ρ c main_v46 = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (between_mi (W2 m ρ c) (m ((c : Thread nD τ).loc main_arg2)) (exit_idx m ρ c)).trans ?_
  rw [exit_msg m ρ c]
  rfl

/-- The summed coordinate updates are the reference's. -/
theorem entry_pu : V3 m ρ c main_v49 = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  refine (between_pu (W2 m ρ c) (m ((c : Thread nD τ).loc main_arg2)) (exit_idx m ρ c)).trans ?_
  rw [exit_cu m ρ c]
  rfl

/-- The in-degrees are the reference's. -/
theorem entry_deg : V3 m ρ c main_v53 = val_main_v80 (F := Ideal) (m ((c : Thread nD τ).loc main_arg2)) :=
  between_deg (W2 m ρ c) (m ((c : Thread nD τ).loc main_arg2)) (exit_idx m ρ c)

theorem entry_h : V3 m ρ c main_arg0 = (m ((c : Thread nD τ).loc main_arg0)) := by
  show after hostOps1 (W2 m ρ c) (Proc.devRef .tc main_arg0) = _
  after_results_simp
  exact (W2_of_ne m ρ c main_arg0 (by decide)).trans (before_keep0 (W0 m ρ c))

theorem entry_pos : V3 m ρ c main_arg1 = (m ((c : Thread nD τ).loc main_arg1)) := by
  show after hostOps1 (W2 m ρ c) (Proc.devRef .tc main_arg1) = _
  after_results_simp
  exact (W2_of_ne m ρ c main_arg1 (by decide)).trans (before_keep1 (W0 m ρ c))

theorem entry_N1 : V3 m ρ c main_arg9 = (m ((c : Thread nD τ).loc main_arg9)) := by
  show after hostOps1 (W2 m ρ c) (Proc.devRef .tc main_arg9) = _
  after_results_simp
  exact (W2_of_ne m ρ c main_arg9 (by decide)).trans (before_keep9 (W0 m ρ c))

theorem entry_Na (κ k : Fin 128) : (V3 m ρ c main_v41 : S128x128.Idx → EReal) (ix2 κ k)
    = ((m ((c : Thread nD τ).loc main_arg7)) : S256x128.Idx → EReal) (ix2 (⟨κ.val, by omega⟩ : Fin 256) k) := by
  show (after hostOps1 (W2 m ρ c) (Proc.devRef .tc main_v41) : S128x128.Idx → EReal) (ix2 κ k) = _
  after_results_simp
  rw [W2_of_ne m ρ c main_v41 (by decide)]
  exact before_Na (W0 m ρ c) κ k

theorem entry_Nb (κ k : Fin 128) : (V3 m ρ c main_v42 : S128x128.Idx → EReal) (ix2 κ k)
    = ((m ((c : Thread nD τ).loc main_arg7)) : S256x128.Idx → EReal) (ix2 (⟨128 + κ.val, by omega⟩ : Fin 256) k) := by
  show (after hostOps1 (W2 m ρ c) (Proc.devRef .tc main_v42) : S128x128.Idx → EReal) (ix2 κ k) = _
  after_results_simp
  rw [W2_of_ne m ρ c main_v42 (by decide)]
  exact before_Nb (W0 m ρ c) κ k

theorem entry_n0 (k : Fin 128) : (V3 m ρ c main_v38 : S1x128.Idx → EReal) (ix2 (0 : Fin 1) k)
    = ((m ((c : Thread nD τ).loc main_arg8)) : S128.Idx → EReal) (ix1 k) := by
  show (after hostOps1 (W2 m ρ c) (Proc.devRef .tc main_v38) : S1x128.Idx → EReal) (ix2 (0 : Fin 1) k) = _
  after_results_simp
  rw [W2_of_ne m ρ c main_v38 (by decide)]
  exact before_n0 (W0 m ρ c) k

theorem entry_n1 (k : Fin 128) : (V3 m ρ c main_v39 : S1x128.Idx → EReal) (ix2 (0 : Fin 1) k)
    = ((m ((c : Thread nD τ).loc main_arg10)) : S128.Idx → EReal) (ix1 k) := by
  show (after hostOps1 (W2 m ρ c) (Proc.devRef .tc main_v39) : S1x128.Idx → EReal) (ix2 (0 : Fin 1) k) = _
  after_results_simp
  rw [W2_of_ne m ρ c main_v39 (by decide)]
  exact before_n1 (W0 m ρ c) k

/-- The node region's result array, computed from what it is entered with, is the reference's first result. -/
theorem node_eq : G7 (V3 m ρ) c = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨p, j, rfl⟩ : ∃ (p : Fin 50000) (j : Fin 128), i = ix2 p j := ⟨i 0, i 1, eq_ix2 i⟩
  show nodeOut (V3 m ρ c main_arg0) (V3 m ρ c main_v46) (V3 m ρ c main_v41) (V3 m ρ c main_v42) (V3 m ρ c main_v38)
    (V3 m ρ c main_arg9) (V3 m ρ c main_v39) p j = _
  rw [entry_h m ρ c, entry_mi m ρ c, entry_N1 m ρ c]
  exact (ref_nodeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (V3 m ρ c main_v41) (V3 m ρ c main_v42) (V3 m ρ c main_v38) (V3 m ρ c main_v39)
    (entry_Na m ρ c) (entry_Nb m ρ c) (entry_n0 m ρ c) (entry_n1 m ρ c) p j).symm

/-! ## The two results -/

/-- The program's first result is the reference's updated node features. -/
theorem result_h : W5 m ρ c (Proc.devRef .tc main_v54) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show after hostOps2 (W4 m ρ c) (Proc.devRef .tc main_v54) = _
  after_results_simp
  exact ((W4_arr m ρ c 7).trans (final7 (V3 m ρ) c)).trans (node_eq m ρ c)

/-- The program's second result is the reference's updated coordinates. -/
theorem result_pos : W5 m ρ c (Proc.devRef .tc main_v60) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  refine (after_pos (W4 m ρ c) (m ((c : Thread nD τ).loc main_arg2)) ((W4_of_ne m ρ c main_v53 (by decide)).trans (entry_deg m ρ c))).trans ?_
  rw [show W4 m ρ c (Proc.devRef .tc main_arg1) = _ from (W4_of_ne m ρ c main_arg1 (by decide)).trans (entry_pos m ρ c),
    show W4 m ρ c (Proc.devRef .tc main_v49) = _ from (W4_of_ne m ρ c main_v49 (by decide)).trans (entry_pu m ρ c)]
  rfl

end Cert.KernelIdeal.HostValues

end
-- ==== Proof.lean ====
/-
  The certificate of one message-passing layer with coordinate updates: a kernel program of two regions — the edge
  layers over 200 blocks of 4000 edges, the node layers over 10 blocks of 5000 nodes — among host gathers and
  scatter-adds, against a reference that computes the same layer with whole-array products.

  Over the extended reals the two programs are one function. The reference multiplies the concatenated edge row
  [h(target), h(source), squared distance] by one 257-row weight matrix; the kernel adds the two 128-column products
  with the matrix's first two row bands and the squared distance times its last row: the same sum over 257 terms, split
  128 + 128 + 1 (and 128 + 128 for the node layer's 256-row matrix). The logistic function is one function on both sides,
  the rounding to bfloat16 before each product is the identity, and the gathers, the three scatter-adds and the final
  quotient are the same host operations on both sides. So each kernel result array, read off the run of its regions
  block by block, is the reference's stage function of the argument arrays, and the two programs, started from
  memories that agree on the arguments, end with equal results. Only associativity and commutativity of the sum are
  used, so finiteness of the inputs is never needed. The three frames are the generated runs.
-/
import proofs.«164863_j58875411693658_1_alg».proof.Defs
import proofs.«164863_j58875411693658_1_alg».proof.Proof.Gen.Kernel
import proofs.«164863_j58875411693658_1_alg».proof.Proof.Gen.Kernel.Skeleton
import proofs.«164863_j58875411693658_1_alg».proof.Proof.Gen.Kernel.Launch
import proofs.«164863_j58875411693658_1_alg».proof.Proof.Gen.Kernel.Points
import proofs.«164863_j58875411693658_1_alg».proof.Proof.Gen.Kernel.Frame
import proofs.«164863_j58875411693658_1_alg».proof.Proof.Gen.KernelIdeal
import proofs.«164863_j58875411693658_1_alg».proof.Proof.Gen.KernelIdeal.Skeleton
import proofs.«164863_j58875411693658_1_alg».proof.Proof.Gen.KernelIdeal.Launch
import proofs.«164863_j58875411693658_1_alg».proof.Proof.Gen.KernelIdeal.Points
import proofs.«164863_j58875411693658_1_alg».proof.Proof.Gen.KernelIdeal.Frame
import proofs.«164863_j58875411693658_1_alg».proof.Proof.Gen.ReferenceIdeal
import proofs.«164863_j58875411693658_1_alg».proof.Proof.Gen.Pre_finite_inputs
import proofs.«164863_j58875411693658_1_alg».proof.Proof.Gen.ReferenceIdeal.Run
import proofs.«164863_j58875411693658_1_alg».proof.Proof.Gen.ReferenceIdeal.Read
import Idealize.ShloMosaic.Adequacy
import Idealize.ShloMosaic.Init

import proofs.«164863_j58875411693658_1_alg».proof.Proof.KernelRun
import proofs.«164863_j58875411693658_1_alg».proof.Proof.KernelHost

set_option maxRecDepth 16384

noncomputable section

namespace Cert.Proof

open Idealize.ShloMosaic Idealize.SL.Sem

/-- The kernel as printed runs and leaves its arguments unchanged: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference's frame is its generated run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the reference's two stage functions of the argument arrays: the kernel by the run of its
    regions read block by block, the reference by its own run, the arguments agreeing. -/
theorem algebraic : Cert.algebraic_KernelIdeal_ReferenceIdeal := by
  intro m ρ m' ρ' _ hagree
  refine ⟨fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.HostValues.result_h m ρ c),
        (h c).2.1.trans (Cert.KernelIdeal.HostValues.result_pos m ρ c), (h c).2.2⟩)
      (Cert.KernelIdeal.RunResults.run_results m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13⟩ := hagree c
    refine ⟨((h c).1.trans (Cert.ReferenceIdeal.Read.val_main_v73_eq m' c)).trans ?_,
      ((h c).2.1.trans (Cert.ReferenceIdeal.Read.val_main_v86_eq m' c)).trans ?_, (h c).2.2⟩
    · rw [e0, e1, e2, e3, e4, e5, e6, e7, e8, e9, e10]
    · rw [e0, e1, e2, e3, e4, e5, e6, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
